-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S250000x16 : S_.BroadcastsInDim S250000x16 (![] : Fin 0 → Fin S250000x16.rank)
  reducesTo_S250000x16_S_d0_1 : S250000x16.ReducesTo [0, 1] S_
  bcast_S_S250000 : S_.BroadcastsInDim S250000 (![] : Fin 0 → Fin S250000.rank)
  reducesTo_S250000_S_d0 : S250000.ReducesTo [0] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S256x256 .f32) (main_arg14 : FVec F S256 .f32) (main_arg15 : FVec F S256x128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_v63 main_v67

def fn_part2 {F : FTy → Type} [FloatOps F] (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S272x256 .f32 := Host.absf main_arg11
  let main_cst_16 : FVec F S_ .f32 := constant S_ .f32 0x7F800000#32
  let main_v45 : FVec F S272x256 .f32 := broadcastInDim S272x256 ![] bcast_S_S272x256 main_cst_16
  let main_v46 : IVec S272x256 1 := cmpf .olt main_v44 main_v45
  let main_c_17 : IVec S_ 1 := constantI S_ 1 1#1
  let main_v47 : IVec S_ 1 := (fun x v => Host.reduce IntOp.andi x v reducesTo_S272x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) (main_v13 : IVec S_ 1) (main_v16 : IVec S272x256 1) : IVec S_ 1 :=
  let main_c_5 : IVec S_ 1 := constantI S_ 1 1#1
  let main_v17 : IVec S_ 1 := (fun x v => Host.reduce IntOp.andi x v reducesTo_S272x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : FVec F S250000x16 .f32) (main_arg2 : FVec F S250000 .f32) (main_arg3 : IVec S250000 32) (main_arg4 : IVec S250000 32) (main_arg5 : FVec F S272x256 .f32) (main_arg6 : FVec F S256 .f32) (main_arg7 : FVec F S256x256 .f32) (main_arg8 : FVec F S256 .f32) (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S250000x16 .f32 := Host.absf main_arg1
  let main_cst_0 : FVec F S_ .f32 := constant S_ .f32 0x7F800000#32
  let main_v5 : FVec F S250000x16 .f32 := broadcastInDim S250000x16 ![] bcast_S_S250000x16 main_cst_0
  let main_v6 : IVec S250000x16 1 := cmpf .olt main_v4 main_v5
  let main_c_1 : IVec S_ 1 := constantI S_ 1 1#1
  let main_v7 : IVec S_ 1 := (fun x v => Host.reduce IntOp.andi x v reducesTo_S250000x16_S_d0_1 h_S_) main_v6 main_c_1
  let main_v8 : IVec S_ 1 := andi main_v3 main_v7
  let main_v9 : FVec F S250000 .f32 := Host.absf main_arg2
  let main_cst_2 : FVec F S_ .f32 := constant S_ .f32 0x7F800000#32
  let main_v10 : FVec F S250000 .f32 := broadcastInDim S250000 ![] bcast_S_S250000 main_cst_2
  let main_v11 : IVec S250000 1 := cmpf .olt main_v9 main_v10
  let main_c_3 : IVec S_ 1 := constantI S_ 1 1#1
  let main_v12 : IVec S_ 1 := (fun x v => Host.reduce IntOp.andi x v reducesTo_S250000_S_d0 h_S_) main_v11 main_c_3
  let main_v13 : IVec S_ 1 := andi main_v8 main_v12
  let main_v14 : FVec F S272x256 .f32 := Host.absf main_arg5
  let main_cst_4 : FVec F S_ .f32 := constant S_ .f32 0x7F800000#32
  let main_v15 : FVec F S272x256 .f32 := broadcastInDim S272x256 ![] bcast_S_S272x256 main_cst_4
  let main_v16 : IVec S272x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S250000x1 : Shape := ⟨2, ![250000, 1]⟩
abbrev S250000x128 : Shape := ⟨2, ![250000, 128]⟩
abbrev S250000x272 : Shape := ⟨2, ![250000, 272]⟩
abbrev S2000x272 : Shape := ⟨2, ![2000, 272]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩

abbrev nBuf : Space → Nat
  | .hbm => 64
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S250000x16, .f32⟩
  | .hbm, ⟨2, _⟩ => ⟨S250000, .f32⟩
  | .hbm, ⟨3, _⟩ => ⟨S250000, .i32⟩
  | .hbm, ⟨4, _⟩ => ⟨S250000, .i32⟩
  | .hbm, ⟨5, _⟩ => ⟨S272x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S272x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S_, .i32⟩
  | .hbm, ⟨18, _⟩ => ⟨S250000, .i32⟩
  | .hbm, ⟨19, _⟩ => ⟨S250000, .i1⟩
  | .hbm, ⟨20, _⟩ => ⟨S_, .i32⟩
  | .hbm, ⟨21, _⟩ => ⟨S250000, .i32⟩
  | .hbm, ⟨22, _⟩ => ⟨S250000, .i32⟩
  | .hbm, ⟨23, _⟩ => ⟨S250000, .i32⟩
  | .hbm, ⟨24, _⟩ => ⟨S250000x1, .i32⟩
  | .hbm, ⟨25, _⟩ => ⟨S250000x128, .f32⟩
  | .hbm, ⟨26, _⟩ => ⟨S_, .i32⟩
  | .hbm, ⟨27, _⟩ => ⟨S250000, .i32⟩
  | .hbm, ⟨28, _⟩ => ⟨S250000, .i1⟩
  | .hbm, ⟨29, _⟩ => ⟨S_, .i32⟩
  | .hbm, ⟨30, _⟩ => ⟨S250000, .i32⟩
  | .hbm, ⟨31, _⟩ => ⟨S250000, .i32⟩
  | .hbm, ⟨32, _⟩ => ⟨S250000, .i32⟩
  | .hbm, ⟨33, _⟩ => ⟨S250000x1, .i32⟩
  | .hbm, ⟨34, _⟩ => ⟨S250000x128, .f32⟩
  | .hbm, ⟨35, _⟩ => ⟨S250000x272, .f32⟩
  | .hbm, ⟨36, _⟩ => ⟨S250000x128, .f32⟩
  | .hbm, ⟨37, _⟩ => ⟨S250000x128, .f32⟩
  | .hbm, ⟨38, _⟩ => ⟨S250000x1, .f32⟩
  | .hbm, ⟨39, _⟩ => ⟨S_, .f32⟩
  | .hbm, ⟨40, _⟩ => ⟨S100000x128, .f32⟩
  | .hbm, ⟨41, _⟩ => ⟨S250000x128, .f32⟩
  | .hbm, ⟨42, _⟩ => ⟨S250000x128, .f32⟩
  | .hbm, ⟨43, _⟩ => ⟨S_, .i32⟩
  | .hbm, ⟨44, _⟩ => ⟨S250000, .i32⟩
  | .hbm, ⟨45, _⟩ => ⟨S250000, .i1⟩
  | .hbm, ⟨46, _⟩ => ⟨S_, .i32⟩
  | .hbm, ⟨47, _⟩ => ⟨S250000, .i32⟩
  | .hbm, ⟨48, _⟩ => ⟨S250000, .i32⟩
  | .hbm, ⟨49, _⟩ => ⟨S250000, .i32⟩
  | .hbm, ⟨50, _⟩ => ⟨S250000x1, .i32⟩
  | .hbm, ⟨51, _⟩ => ⟨S100000x128, .f32⟩
  | .hbm, ⟨52, _⟩ => ⟨S250000x128, .f32⟩
  | .hbm, ⟨53, _⟩ => ⟨S250000x128, .f32⟩
  | .hbm, ⟨54, _⟩ => ⟨S_, .i32⟩
  | .hbm, ⟨55, _⟩ => ⟨S250000, .i32⟩
  | .hbm, ⟨56, _⟩ => ⟨S250000, .i1⟩
  | .hbm, ⟨57, _⟩ => ⟨S_, .i32⟩
  | .hbm, ⟨58, _⟩ => ⟨S250000, .i32⟩
  | .hbm, ⟨59, _⟩ => ⟨S250000, .i32⟩
  | .hbm, ⟨60, _⟩ => ⟨S250000, .i32⟩
  | .hbm, ⟨61, _⟩ => ⟨S250000x1, .i32⟩
  | .hbm, ⟨62, _⟩ => ⟨S100000x128, .f32⟩
  | .hbm, ⟨63, _⟩ => ⟨S100000x128, .f32⟩
  | .local _ .vmem, ⟨0, _⟩ => ⟨S2000x272, .f32⟩
  | .local _ .vmem, ⟨1, _⟩ => ⟨S2000x272, .f32⟩
  | .local _ .vmem, ⟨2, _⟩ => ⟨S272x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S272x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S272x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S272x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  concatenates_S250000x16_S250000x128_S250000x128_S250000x272_d1 : Shape.Concatenates [S250000x16, S250000x128, S250000x128] S250000x272 1
  inb_S2000x272_S2000x272_0_0 : ∀ a, (![0, 0] : Fin 2 → Nat) a + S2000x272.size a ≤ S2000x272.size a
  h_S2000x272 : 0 < S2000x272.numel
  shapeCasts_S2000x272_S2000x272 : S2000x272.ShapeCasts S2000x272
  bitsLt_bf16_f32 : FTy.bits .bf16 < FTy.bits .f32
  inb_S272x256_S272x256_0_0 : ∀ a, (![0, 0] : Fin 2 → Nat) a + S272x256.size a ≤ S272x256.size a
  h_S272x256 : 0 < S272x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S250000x1_S250000x128_0_1 : S250000x1.BroadcastsInDim S250000x128 (![0, 1] : Fin 2 → Fin S250000x128.rank)
  gather_S100000x128_S250000x1_S250000x128_1_0_n_n_0_1_1128_wf : GatherDims.WF S100000x128 S250000x1 S250000x128 [1] [0] [] [0] [] 1 ![1, 128]
  dot_S2000x272_S272x256_S2000x256_1_0_0_1_n_n_wf : DotDims.WF S2000x272 S272x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  scatter_S100000x128_S250000x1_S250000x128_1_0_0_1_wf : ScatterDims.WF S100000x128 S250000x1 S250000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x272.size a ≤ S250000x272.size a
  hwx0_0 : ∀ i : grid0.Coords, EltTy.bits .f32 = 32 ∨ (Rect.block (s := S250000x272) S2000x272.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S272x256.size a ≤ S272x256.size a
  hwx0_1 : ∀ i : grid0.Coords, EltTy.bits .f32 = 32 ∨ (Rect.block (s := S272x256) S272x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S272x256.size a ≤ S272x256.size a
  hwx0_7 : ∀ i : grid0.Coords, EltTy.bits .f32 = 32 ∨ (Rect.block (s := S272x256) S272x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S250000x128.size a
  hwx0_13 : ∀ i : grid0.Coords, EltTy.bits .f32 = 32 ∨ (Rect.block (s := S250000x128) S2000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S250000x128.size a
  hwx0_14 : ∀ i : grid0.Coords, EltTy.bits .f32 = 32 ∨ (Rect.block (s := S250000x128) S2000x128.size (cc0_transform_14 i) (hinb0_14 i)).WholeWords (EltTy.packing .f32)

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def dot_S2000x272_S272x256_S2000x256_1_0_0_1_n_n : DotDims S2000x272 S272x256 S2000x256 where
  lhsContracting := [1]
  rhsContracting := [0]
  lhsNonContracting := [0]
  rhsNonContracting := [1]
  lhsBatch := []
  rhsBatch := []
  wf := dot_S2000x272_S272x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf

abbrev win0_0 : Pipeline.Window sig grid0 :=
  Pipeline.Window.ofSpec (Memref.whole main_v14) S2000x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S272x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S272x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15_1) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S250000x1 : Shape := ⟨2, ![250000, 1]⟩
abbrev S250000x128 : Shape := ⟨2, ![250000, 128]⟩
abbrev S250000x272 : Shape := ⟨2, ![250000, 272]⟩
abbrev S250000x256 : Shape := ⟨2, ![250000, 256]⟩
abbrev S1x256 : Shape := ⟨2, ![1, 256]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S250000x16, .f32⟩
  | .hbm, ⟨2, _⟩ => ⟨S250000, .f32⟩
  | .hbm, ⟨3, _⟩ => ⟨S250000, .i32⟩
  | .hbm, ⟨4, _⟩ => ⟨S250000, .i32⟩
  | .hbm, ⟨5, _⟩ => ⟨S272x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S272x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S_, .i32⟩
  | .hbm, ⟨18, _⟩ => ⟨S250000, .i32⟩
  | .hbm, ⟨19, _⟩ => ⟨S250000, .i1⟩
  | .hbm, ⟨20, _⟩ => ⟨S_, .i32⟩
  | .hbm, ⟨21, _⟩ => ⟨S250000, .i32⟩
  | .hbm, ⟨22, _⟩ => ⟨S250000, .i32⟩
  | .hbm, ⟨23, _⟩ => ⟨S250000, .i32⟩
  | .hbm, ⟨24, _⟩ => ⟨S250000x1, .i32⟩
  | .hbm, ⟨25, _⟩ => ⟨S250000x128, .f32⟩
  | .hbm, ⟨26, _⟩ => ⟨S_, .i32⟩
  | .hbm, ⟨27, _⟩ => ⟨S250000, .i32⟩
  | .hbm, ⟨28, _⟩ => ⟨S250000, .i1⟩
  | .hbm, ⟨29, _⟩ => ⟨S_, .i32⟩
  | .hbm, ⟨30, _⟩ => ⟨S250000, .i32⟩
  | .hbm, ⟨31, _⟩ => ⟨S250000, .i32⟩
  | .hbm, ⟨32, _⟩ => ⟨S250000, .i32⟩
  | .hbm, ⟨33, _⟩ => ⟨S250000x1, .i32⟩
  | .hbm, ⟨34, _⟩ => ⟨S250000x128, .f32⟩
  | .hbm, ⟨35, _⟩ => ⟨S250000x272, .f32⟩
  | .hbm, ⟨36, _⟩ => ⟨S250000x1, .f32⟩
  | .hbm, ⟨37, _⟩ => ⟨S_, .f32⟩
  | .hbm, ⟨38, _⟩ => ⟨S100000x128, .f32⟩
  | .hbm, ⟨39, _⟩ => ⟨S250000x256, .f32⟩
  | .hbm, ⟨40, _⟩ => ⟨S1x256, .f32⟩
  | .hbm, ⟨41, _⟩ => ⟨S250000x256, .f32⟩
  | .hbm, ⟨42, _⟩ => ⟨S250000x256, .f32⟩
  | .hbm, ⟨43, _⟩ => ⟨S_, .f32⟩
  | .hbm, ⟨44, _⟩ => ⟨S250000x256, .f32⟩
  | .hbm, ⟨45, _⟩ => ⟨S250000x256, .f32⟩
  | .hbm, ⟨46, _⟩ => ⟨S250000x256, .f32⟩
  | .hbm, ⟨47, _⟩ => ⟨S1x256, .f32⟩
  | .hbm, ⟨48, _⟩ => ⟨S250000x256, .f32⟩
  | .hbm, ⟨49, _⟩ => ⟨S250000x256, .f32⟩
  | .hbm, ⟨50, _⟩ => ⟨S_, .f32⟩
  | .hbm, ⟨51, _⟩ => ⟨S250000x256, .f32⟩
  | .hbm, ⟨52, _⟩ => ⟨S250000x256, .f32⟩
  | .hbm, ⟨53, _⟩ => ⟨S250000x128, .f32⟩
  | .hbm, ⟨54, _⟩ => ⟨S1x128, .f32⟩
  | .hbm, ⟨55, _⟩ => ⟨S250000x128, .f32⟩
  | .hbm, ⟨56, _⟩ => ⟨S250000x128, .f32⟩
  | .hbm, ⟨57, _⟩ => ⟨S250000x128, .f32⟩
  | .hbm, ⟨58, _⟩ => ⟨S250000x128, .f32⟩
  | .hbm, ⟨59, _⟩ => ⟨S_, .i32⟩
  | .hbm, ⟨60, _⟩ => ⟨S250000, .i32⟩
  | .hbm, ⟨61, _⟩ => ⟨S250000, .i1⟩
  | .hbm, ⟨62, _⟩ => ⟨S_, .i32⟩
  | .hbm, ⟨63, _⟩ => ⟨S250000, .i32⟩
  | .hbm, ⟨64, _⟩ => ⟨S250000, .i32⟩
  | .hbm, ⟨65, _⟩ => ⟨S250000, .i32⟩
  | .hbm, ⟨66, _⟩ => ⟨S250000x1, .i32⟩
  | .hbm, ⟨67, _⟩ => ⟨S100000x128, .f32⟩
  | .hbm, ⟨68, _⟩ => ⟨S250000x256, .f32⟩
  | .hbm, ⟨69, _⟩ => ⟨S1x256, .f32⟩
  | .hbm, ⟨70, _⟩ => ⟨S250000x256, .f32⟩
  | .hbm, ⟨71, _⟩ => ⟨S250000x256, .f32⟩
  | .hbm, ⟨72, _⟩ => ⟨S_, .f32⟩
  | .hbm, ⟨73, _⟩ => ⟨S250000x256, .f32⟩
  | .hbm, ⟨74, _⟩ => ⟨S250000x256, .f32⟩
  | .hbm, ⟨75, _⟩ => ⟨S250000x256, .f32⟩
  | .hbm, ⟨76, _⟩ => ⟨S1x256, .f32⟩
  | .hbm, ⟨77, _⟩ => ⟨S250000x256, .f32⟩
  | .hbm, ⟨78, _⟩ => ⟨S250000x256, .f32⟩
  | .hbm, ⟨79, _⟩ => ⟨S_, .f32⟩
  | .hbm, ⟨80, _⟩ => ⟨S250000x256, .f32⟩
  | .hbm, ⟨81, _⟩ => ⟨S250000x256, .f32⟩
  | .hbm, ⟨82, _⟩ => ⟨S250000x128, .f32⟩
  | .hbm, ⟨83, _⟩ => ⟨S1x128, .f32⟩
  | .hbm, ⟨84, _⟩ => ⟨S250000x128, .f32⟩
  | .hbm, ⟨85, _⟩ => ⟨S250000x128, .f32⟩
  | .hbm, ⟨86, _⟩ => ⟨S250000x128, .f32⟩
  | .hbm, ⟨87, _⟩ => ⟨S250000x128, .f32⟩
  | .hbm, ⟨88, _⟩ => ⟨S_, .i32⟩
  | .hbm, ⟨89, _⟩ => ⟨S250000, .i32⟩
  | .hbm, ⟨90, _⟩ => ⟨S250000, .i1⟩
  | .hbm, ⟨91, _⟩ => ⟨S_, .i32⟩
  | .hbm, ⟨92, _⟩ => ⟨S250000, .i32⟩
  | .hbm, ⟨93, _⟩ => ⟨S250000, .i32⟩
  | .hbm, ⟨94, _⟩ => ⟨S250000, .i32⟩
  | .hbm, ⟨95, _⟩ => ⟨S250000x1, .i32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_cst : Ref sig .tc := ⟨.hbm, 43, rfl⟩
abbrev main_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call1_cst : Ref sig .tc := ⟨.hbm, 50, rfl⟩
abbrev main_call1_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call2_cst : Ref sig .tc := ⟨.hbm, 72, rfl⟩
abbrev main_call2_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call3_cst : Ref sig .tc := ⟨.hbm, 79, rfl⟩
abbrev main_call3_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_5 : Ref sig .tc := ⟨.hbm, 88, rfl⟩
abbrev main_v56 : Ref sig .tc := ⟨.hbm, 89, rfl⟩
abbrev main_v57 : Ref sig .tc := ⟨.hbm, 90, rfl⟩
abbrev main_c_6 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  concatenates_S250000x16_S250000x128_S250000x128_S250000x272_d1 : Shape.Concatenates [S250000x16, S250000x128, S250000x128] S250000x272 1
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S250000x256_0_1 : S1x256.BroadcastsInDim S250000x256 (![0, 1] : Fin 2 → Fin S250000x256.rank)
  bcast_S_S250000x256 : S_.BroadcastsInDim S250000x256 (![] : Fin 0 → Fin S250000x256.rank)
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S250000x1_S250000x128_0_1 : S250000x1.BroadcastsInDim S250000x128 (![0, 1] : Fin 2 → Fin S250000x128.rank)
  gather_S100000x128_S250000x1_S250000x128_1_0_n_n_0_1_1128_wf : GatherDims.WF S100000x128 S250000x1 S250000x128 [1] [0] [] [0] [] 1 ![1, 128]
  dot_S250000x272_S272x256_S250000x256_1_0_0_1_n_n_wf : DotDims.WF S250000x272 S272x256 S250000x256 [1] [0] [0] [1] [] []
  dot_S250000x256_S256x256_S250000x256_1_0_0_1_n_n_wf : DotDims.WF S250000x256 S256x256 S250000x256 [1] [0] [0] [1] [] []
  dot_S250000x256_S256x128_S250000x128_1_0_0_1_n_n_wf : DotDims.WF S250000x256 S256x128 S250000x128 [1] [0] [0] [1] [] []
  scatter_S100000x128_S250000x1_S250000x128_1_0_0_1_wf : ScatterDims.WF S100000x128 S250000x1 S250000x128 [1] [0] [0] 1

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def dot_S250000x272_S272x256_S250000x256_1_0_0_1_n_n : DotDims S250000x272 S272x256 S250000x256 where
  lhsContracting := [1]
  rhsContracting := [0]
  lhsNonContracting := [0]
  rhsNonContracting := [1]
  lhsBatch := []
  rhsBatch := []
  wf := dot_S250000x272_S272x256_S250000x256_1_0_0_1_n_n_wf
def dot_S250000x256_S256x256_S250000x256_1_0_0_1_n_n : DotDims S250000x256 S256x256 S250000x256 where
  lhsContracting := [1]
  rhsContracting := [0]
  lhsNonContracting := [0]
  rhsNonContracting := [1]
  lhsBatch := []
  rhsBatch := []
  wf := dot_S250000x256_S256x256_S250000x256_1_0_0_1_n_n_wf
def dot_S250000x256_S256x128_S250000x128_1_0_0_1_n_n : DotDims S250000x256 S256x128 S250000x128 where
  lhsContracting := [1]
  rhsContracting := [0]
  lhsNonContracting := [0]
  rhsNonContracting := [1]
  lhsBatch := []
  rhsBatch := []
  wf := dot_S250000x256_S256x128_S250000x128_1_0_0_1_n_n_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf

class Facts : Prop extends Facts₀ where

variable [Facts]
-- ==== Proof.KernelAround.lean ====
/-
  The kernel program's @main around its one region.  Before the region nineteen host operations
  build the per-edge input array: each port's node index is wrapped once if negative, the node rows are
  gathered, and the edge features and the two gathered rows are concatenated into a 250000 × 272 array.  After
  the region twenty-six host operations mask the two per-port results, scatter-add them into a zero
  100000 × 128 accumulator at the same wrapped indices, and apply tanh.
  Here: what each array holds when the region is entered, that the host operations write only their own
  results (so the seventeen arguments are found and left as launched), a window's block at a grid point, and
  the arguments' part of the run's final state.
-/
import proofs.«129351_j29910152250019_1_alg».proof.Proof.Gen.Kernel.Launch
import proofs.«129351_j29910152250019_1_alg».proof.Proof.Gen.Kernel.Points
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The region's entry -/

/-- Core `c`'s buffer contents when the region is entered: the launch memory after the nineteen host
    operations that build the input array. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- No host operation allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is: the operations before the region, the region, then the operations after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The operations after the region -/

/-- They touch only unscoped TensorCore buffers: the pipeline's arrays and the buffers that bypass it. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes its own result buffer only, and no result of theirs is an array of the pipeline. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals
    intro w
    simp only [StableHlo.nullary_writes, StableHlo.unary_writes, StableHlo.binary_writes, StableHlo.ternary_writes, Finset.mem_singleton]
    exact StableHlo.devRef_ne_of_ne (by revert w; decide)

/-! ## Buffers the host operations leave alone -/

/-- Decides that no operation of a stretch writes a given buffer: each writes its own result, a different buffer. -/
local macro "no_write_in " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.nary_writes, Finset.mem_singleton]
  repeat' apply And.intro
  all_goals exact StableHlo.devRef_ne_of_ne (by decide)))

/-- A buffer no operation before the region writes is found by the region as launched. -/
theorem entry_of (c : Dev nD) (b : Ref sig .tc)
    (h : (List.flatten [(hostOps0 : List (HloOp τ sig (Elt F)))]).Forall fun op => Proc.devRef .tc b ∉ op.writes) :
    entryAt m c b = m ((c : Thread nD τ).loc b) :=
  StableHlo.after_of_forall_not_mem (b := Proc.devRef .tc b) _ _ (List.forall_iff_forall_mem.mp h)

/-- A buffer that is no array of the pipeline and that no host operation writes ends as launched. -/
theorem exit_of (dats : (p : Fin 1) → (c : Dev nD) → Dat τ (Elt F) Unit ℕ (UR sig nD τ) ℕ (cfgs p) c) (c : Dev nD) (b : Ref sig .tc)
    (h₀ : (List.flatten [(hostOps0 : List (HloOp τ sig (Elt F)))]).Forall fun op => Proc.devRef .tc b ∉ op.writes)
    (h₁ : (List.flatten [(hostOps1 : List (HloOp τ sig (Elt F)))]).Forall fun op => Proc.devRef .tc b ∉ op.writes)
    (hb : ∀ w, Pipeline.arrRef spec0 w ≠ b) :
    Pipeline.afterTail₀ cfgs dats 0 (entryVal m) [hostOps1] c b = m ((c : Thread nD τ).loc b) := by
  unfold Pipeline.afterTail₀
  rw [StableHlo.after_of_forall_not_mem (b := Proc.devRef .tc b) _ _ (List.forall_iff_forall_mem.mp h₁),
    Pipeline.withArrays_of_ne _ c (entryVal m c) _ b hb]
  exact entry_of m c b h₀

/-! ## A window's block -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The arguments at the end of the run

In a final state of the run every argument array is as launched: the five the region does not stage (the node
coordinates, the edge features, the mask and the two index arrays) because no host operation writes them and
they are no array of the pipeline; the twelve weight and bias arrays because an input window's array ends as the
region found it, and the region found it as launched. -/

section
variable (dats : (p : Fin 1) → (c : Dev nD) → Dat τ (Elt F) Unit ℕ (UR sig nD τ) ℕ (cfgs p) c)
  (hA : ∀ c w, (dats 0 c).A w = entryAt m c (Pipeline.arrRef spec0 w))
  (r : PUnit × MemSt nD τ sig (Elt F)) (h : Pipeline.FramePost cfgs dats 0 (Pipeline.afterTail₀ cfgs dats 0 (entryVal m) [hostOps1]) r) (c : Dev nD)
include h

theorem kept_arg0 : r.2.mem ((c.tc : Thread nD τ).loc main_arg0) = m ((c.tc : Thread nD τ).loc main_arg0) :=
  ((h c).2 main_arg0 (Pipeline.mem_restRefs_of main_arg0 (by decide) (by decide))).trans
    (exit_of m dats c main_arg0 (by no_write_in hostOps0) (by no_write_in hostOps1) (by decide))
theorem kept_arg1 : r.2.mem ((c.tc : Thread nD τ).loc main_arg1) = m ((c.tc : Thread nD τ).loc main_arg1) :=
  ((h c).2 main_arg1 (Pipeline.mem_restRefs_of main_arg1 (by decide) (by decide))).trans
    (exit_of m dats c main_arg1 (by no_write_in hostOps0) (by no_write_in hostOps1) (by decide))
theorem kept_arg2 : r.2.mem ((c.tc : Thread nD τ).loc main_arg2) = m ((c.tc : Thread nD τ).loc main_arg2) :=
  ((h c).2 main_arg2 (Pipeline.mem_restRefs_of main_arg2 (by decide) (by decide))).trans
    (exit_of m dats c main_arg2 (by no_write_in hostOps0) (by no_write_in hostOps1) (by decide))
theorem kept_arg3 : r.2.mem ((c.tc : Thread nD τ).loc main_arg3) = m ((c.tc : Thread nD τ).loc main_arg3) :=
  ((h c).2 main_arg3 (Pipeline.mem_restRefs_of main_arg3 (by decide) (by decide))).trans
    (exit_of m dats c main_arg3 (by no_write_in hostOps0) (by no_write_in hostOps1) (by decide))
theorem kept_arg4 : r.2.mem ((c.tc : Thread nD τ).loc main_arg4) = m ((c.tc : Thread nD τ).loc main_arg4) :=
  ((h c).2 main_arg4 (Pipeline.mem_restRefs_of main_arg4 (by decide) (by decide))).trans
    (exit_of m dats c main_arg4 (by no_write_in hostOps0) (by no_write_in hostOps1) (by decide))

include hA

theorem kept_arg5 : r.2.mem ((c.tc : Thread nD τ).loc main_arg5) = m ((c.tc : Thread nD τ).loc main_arg5) :=
  ((h c).1 1).trans (((dats 0 c).arrAt_in 1 rfl _).trans ((hA c 1).trans (entry_of m c main_arg5 (by no_write_in hostOps0))))
theorem kept_arg6 : r.2.mem ((c.tc : Thread nD τ).loc main_arg6) = m ((c.tc : Thread nD τ).loc main_arg6) :=
  ((h c).1 2).trans (((dats 0 c).arrAt_in 2 rfl _).trans ((hA c 2).trans (entry_of m c main_arg6 (by no_write_in hostOps0))))
theorem kept_arg7 : r.2.mem ((c.tc : Thread nD τ).loc main_arg7) = m ((c.tc : Thread nD τ).loc main_arg7) :=
  ((h c).1 3).trans (((dats 0 c).arrAt_in 3 rfl _).trans ((hA c 3).trans (entry_of m c main_arg7 (by no_write_in hostOps0))))
theorem kept_arg8 : r.2.mem ((c.tc : Thread nD τ).loc main_arg8) = m ((c.tc : Thread nD τ).loc main_arg8) :=
  ((h c).1 4).trans (((dats 0 c).arrAt_in 4 rfl _).trans ((hA c 4).trans (entry_of m c main_arg8 (by no_write_in hostOps0))))
theorem kept_arg9 : r.2.mem ((c.tc : Thread nD τ).loc main_arg9) = m ((c.tc : Thread nD τ).loc main_arg9) :=
  ((h c).1 5).trans (((dats 0 c).arrAt_in 5 rfl _).trans ((hA c 5).trans (entry_of m c main_arg9 (by no_write_in hostOps0))))
theorem kept_arg10 : r.2.mem ((c.tc : Thread nD τ).loc main_arg10) = m ((c.tc : Thread nD τ).loc main_arg10) :=
  ((h c).1 6).trans (((dats 0 c).arrAt_in 6 rfl _).trans ((hA c 6).trans (entry_of m c main_arg10 (by no_write_in hostOps0))))
theorem kept_arg11 : r.2.mem ((c.tc : Thread nD τ).loc main_arg11) = m ((c.tc : Thread nD τ).loc main_arg11) :=
  ((h c).1 7).trans (((dats 0 c).arrAt_in 7 rfl _).trans ((hA c 7).trans (entry_of m c main_arg11 (by no_write_in hostOps0))))
theorem kept_arg12 : r.2.mem ((c.tc : Thread nD τ).loc main_arg12) = m ((c.tc : Thread nD τ).loc main_arg12) :=
  ((h c).1 8).trans (((dats 0 c).arrAt_in 8 rfl _).trans ((hA c 8).trans (entry_of m c main_arg12 (by no_write_in hostOps0))))
theorem kept_arg13 : r.2.mem ((c.tc : Thread nD τ).loc main_arg13) = m ((c.tc : Thread nD τ).loc main_arg13) :=
  ((h c).1 9).trans (((dats 0 c).arrAt_in 9 rfl _).trans ((hA c 9).trans (entry_of m c main_arg13 (by no_write_in hostOps0))))
theorem kept_arg14 : r.2.mem ((c.tc : Thread nD τ).loc main_arg14) = m ((c.tc : Thread nD τ).loc main_arg14) :=
  ((h c).1 10).trans (((dats 0 c).arrAt_in 10 rfl _).trans ((hA c 10).trans (entry_of m c main_arg14 (by no_write_in hostOps0))))
theorem kept_arg15 : r.2.mem ((c.tc : Thread nD τ).loc main_arg15) = m ((c.tc : Thread nD τ).loc main_arg15) :=
  ((h c).1 11).trans (((dats 0 c).arrAt_in 11 rfl _).trans ((hA c 11).trans (entry_of m c main_arg15 (by no_write_in hostOps0))))
theorem kept_arg16 : r.2.mem ((c.tc : Thread nD τ).loc main_arg16) = m ((c.tc : Thread nD τ).loc main_arg16) :=
  ((h c).1 12).trans (((dats 0 c).arrAt_in 12 rfl _).trans ((hA c 12).trans (entry_of m c main_arg16 (by no_write_in hostOps0))))

theorem args_kept :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨kept_arg0 m dats r h c, kept_arg1 m dats r h c, kept_arg2 m dats r h c, kept_arg3 m dats r h c, kept_arg4 m dats r h c,
   kept_arg5 m dats hA r h c, kept_arg6 m dats hA r h c, kept_arg7 m dats hA r h c, kept_arg8 m dats hA r h c, kept_arg9 m dats hA r h c, kept_arg10 m dats hA r h c, kept_arg11 m dats hA r h c, kept_arg12 m dats hA r h c, kept_arg13 m dats hA r h c, kept_arg14 m dats hA r h c, kept_arg15 m dats hA r h c, kept_arg16 m dats hA r h c⟩

end

end Cert.Kernel.Around

end
-- ==== Proof.KernelBody.lean ====
/-
  The kernel body at one grid point, and the run of the kernel program.
  At a point the body reads a 2000 × 272 block of the per-edge input array and, for each of the two ports,
  that port's three weight matrices and three bias vectors; it writes, for each port, a 2000 × 128 block: the
  port's three-layer perceptron of the block's rows (a product with the first weights plus bias, clamped below
  at zero, the same with the second weights, then the third product plus bias).  Each output buffer is
  overwritten whole by one store, so what it holds afterwards is that one stored value, whatever it held before.
  The pipeline stages the input block afresh at every point and the weights once; the two results are written
  back at every point.
-/
import proofs.«129351_j29910152250019_1_alg».proof.Proof.KernelAround
import proofs.«129351_j29910152250019_1_alg».proof.Proof.Gen.Kernel.Skeleton
import Idealize.ShloMosaic.Lib.Ring
import Idealize.ShloMosaic.Lib.Tactic

set_option maxRecDepth 16384

noncomputable section

namespace Cert.Kernel.Body

open Cert.Kernel Cert.Kernel.Gen Cert.Kernel.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer is read or written whole -/

abbrev rIn : Rect S2000x272 := Rect.unit (s := S2000x272) ![0, 0] S2000x272.size inb_S2000x272_S2000x272_0_0
abbrev rW1 : Rect S272x256 := Rect.unit (s := S272x256) ![0, 0] S272x256.size inb_S272x256_S272x256_0_0
abbrev rB256 : Rect S256 := Rect.unit (s := S256) ![0] S256.size inb_S256_S256_0
abbrev rW2 : Rect S256x256 := Rect.unit (s := S256x256) ![0, 0] S256x256.size inb_S256x256_S256x256_0_0
abbrev rW3 : Rect S256x128 := Rect.unit (s := S256x128) ![0, 0] S256x128.size inb_S256x128_S256x128_0_0
abbrev rB128 : Rect S128 := Rect.unit (s := S128) ![0] S128.size inb_S128_S128_0
abbrev rOut : Rect S2000x128 := Rect.unit (s := S2000x128) ![0, 0] S2000x128.size inb_S2000x128_S2000x128_0_0

/-! ## What the body leaves in the two output buffers -/

/-- Port 1's buffer after the body: its one store, the perceptron of the input block under port 1's weights. -/
def port1Block (x0 : Vec F S2000x272 .f32) (x1 : Vec F S272x256 .f32) (x2 : Vec F S256 .f32) (x3 : Vec F S256x256 .f32)
    (x4 : Vec F S256 .f32) (x5 : Vec F S256x128 .f32) (x6 : Vec F S128 .f32) : Vec F S2000x128 .f32 :=
  View.canon [⟨rOut, k0_pay3 (View.ld x0 rIn) (View.ld x1 rW1) (View.ld x2 rB256) (View.ld x3 rW2) (View.ld x4 rB256) (View.ld x5 rW3) (View.ld x6 rB128)⟩]

/-- Port 2's buffer after the body: the same of port 2's weights. -/
def port2Block (x0 : Vec F S2000x272 .f32) (x7 : Vec F S272x256 .f32) (x8 : Vec F S256 .f32) (x9 : Vec F S256x256 .f32)
    (x10 : Vec F S256 .f32) (x11 : Vec F S256x128 .f32) (x12 : Vec F S128 .f32) : Vec F S2000x128 .f32 :=
  View.canon [⟨rOut, k0_pay1 (k0_pay4 (View.ld x0 rIn) (View.ld x7 rW1)) (k0_pay5 (View.ld x8 rB256)) (View.ld x9 rW2) (View.ld x10 rB256) (View.ld x11 rW3) (View.ld x12 rB128)⟩]

/-- One whole-buffer store covers the buffer. -/
theorem out_cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

/-! ## The body's triple -/

set_option maxHeartbeats 4000000 in
/-- On whole staging buffers, the thirteen inputs' at contents `x0 … x12` and the two outputs' at anything, the body
    runs to its end, leaves the inputs as they were, and leaves the outputs at `port1Block` and `port2Block`. -/
theorem sound_kernel (c : Dev nD) (E : Set ℕ) (i : grid0.Coords) (arg1 : Memref sig .tc .vmem S2000x272 .f32) (harg1 : arg1.IsWhole) (arg2 : Memref sig .tc .vmem S272x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S272x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x128 .f32) (harg12 : arg12.IsWhole) (arg13 : Memref sig .tc .vmem S128 .f32) (harg13 : arg13.IsWhole) (arg14 : Memref sig .tc .vmem S2000x128 .f32) (harg14 : arg14.IsWhole) (arg15 : Memref sig .tc .vmem S2000x128 .f32) (harg15 : arg15.IsWhole)
    (x0 : Vec F S2000x272 .f32) (x1 : Vec F S272x256 .f32) (x2 : Vec F S256 .f32) (x3 : Vec F S256x256 .f32) (x4 : Vec F S256 .f32) (x5 : Vec F S256x128 .f32) (x6 : Vec F S128 .f32) (x7 : Vec F S272x256 .f32) (x8 : Vec F S256 .f32) (x9 : Vec F S256x256 .f32) (x10 : Vec F S256 .f32) (x11 : Vec F S256x128 .f32) (x12 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (port1Block x0 x1 x2 x3 x4 x5 x6)
            ∗ owns (c : Thread nD τ) arg15 fullShare (port2Block x0 x7 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (out_cover _)
  iexists _; isplitr
  swap; · iexact H14
  ipureintro
  try dsimp only
  exact View.read_writes_eq_canon _ _ _ (out_cover _)

/-! ## The pipeline's proof data -/

/-- On core `c`: the arrays as the region finds them; after the body at point `t` an input's buffer still at its
    block and each port's output buffer at that port's perceptron of the blocks; nothing else of the core is used. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => port1Block (blockAt m c 0 t) (blockAt m c 1 t) (blockAt m c 2 t) (blockAt m c 3 t) (blockAt m c 4 t) (blockAt m c 5 t) (blockAt m c 6 t)
    | ⟨14, _⟩ => port2Block (blockAt m c 0 t) (blockAt m c 7 t) (blockAt m c 8 t) (blockAt m c 9 t) (blockAt m c 10 t) (blockAt m c 11 t) (blockAt m c 12 t)
  Φ _ := Pipeline.ΦA spec0 c
  q _ := fullShare
  owed _ := 0

/-- The proof data's arrays are the region-entry contents (by projection; the entry valuation stays folded). -/
theorem A_eq (c : Dev nD) (w : Fin cfg0.W) : (dats m 0 c).A w = entryAt m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) : (dats m 0 c).after 10 t = blockAt m c 10 t := by dsimp only [dats]
theorem after_11 (c : Dev nD) (t : Fin cfg0.N) : (dats m 0 c).after 11 t = blockAt m c 11 t := by dsimp only [dats]
theorem after_12 (c : Dev nD) (t : Fin cfg0.N) : (dats m 0 c).after 12 t = blockAt m c 12 t := by dsimp only [dats]
theorem after_13 (c : Dev nD) (t : Fin cfg0.N) : (dats m 0 c).after 13 t
    = port1Block (blockAt m c 0 t) (blockAt m c 1 t) (blockAt m c 2 t) (blockAt m c 3 t) (blockAt m c 4 t) (blockAt m c 5 t) (blockAt m c 6 t) := by dsimp only [dats]
theorem after_14 (c : Dev nD) (t : Fin cfg0.N) : (dats m 0 c).after 14 t
    = port2Block (blockAt m c 0 t) (blockAt m c 7 t) (blockAt m c 8 t) (blockAt m c 9 t) (blockAt m c 10 t) (blockAt m c 11 t) (blockAt m c 12 t) := by dsimp only [dats]

/-- An input's current staging buffer holds its block at every point, staged there or not: when it is not
    staged afresh the block index has not moved, and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl)
    (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl)
    (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl)
    (fun t => by rw [after_8]; unfold Dat.blockOf blockAt; rw [A_eq]; try rfl) t d).trans
    (by unfold Dat.fetched Dat.blockOf blockAt; rw [A_eq]; try rfl)
theorem before_9 (c : Dev nD) (t : Fin cfg0.N) (d) : (dats m 0 c).before 9 t d = blockAt m c 9 t :=
  ((dats m 0 c).before_in_eq_fetched 9 rfl (fun _ => rfl) (fun _ _ _ => rfl)
    (fun t => by rw [after_9]; unfold Dat.blockOf blockAt; rw [A_eq]; try rfl) t d).trans
    (by unfold Dat.fetched Dat.blockOf blockAt; rw [A_eq]; try rfl)
theorem before_10 (c : Dev nD) (t : Fin cfg0.N) (d) : (dats m 0 c).before 10 t d = blockAt m c 10 t :=
  ((dats m 0 c).before_in_eq_fetched 10 rfl (fun _ => rfl) (fun _ _ _ => rfl)
    (fun t => by rw [after_10]; unfold Dat.blockOf blockAt; rw [A_eq]; try rfl) t d).trans
    (by unfold Dat.fetched Dat.blockOf blockAt; rw [A_eq]; try rfl)
theorem before_11 (c : Dev nD) (t : Fin cfg0.N) (d) : (dats m 0 c).before 11 t d = blockAt m c 11 t :=
  ((dats m 0 c).before_in_eq_fetched 11 rfl (fun _ => rfl) (fun _ _ _ => rfl)
    (fun t => by rw [after_11]; unfold Dat.blockOf blockAt; rw [A_eq]; try rfl) t d).trans
    (by unfold Dat.fetched Dat.blockOf blockAt; rw [A_eq]; try rfl)
theorem before_12 (c : Dev nD) (t : Fin cfg0.N) (d) : (dats m 0 c).before 12 t d = blockAt m c 12 t :=
  ((dats m 0 c).before_in_eq_fetched 12 rfl (fun _ => rfl) (fun _ _ _ => rfl)
    (fun t => by rw [after_12]; unfold Dat.blockOf blockAt; rw [A_eq]; try rfl) t d).trans
    (by unfold Dat.fetched Dat.blockOf blockAt; rw [A_eq]; try rfl)

/-! ## The body obligation -/

/-- What the body is called with at point `t`: the windows' current staging buffers, one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and in every final
    state each array of the pipeline holds what the proof data give it and every other unscoped buffer what the
    operations after the region leave in it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := post_sub) (hfresh := post_fresh') (hkeep := post_keeps)
    (hmain := main_around m Variants.none) (hA := A_eq m) (hΦ := fun _ _ => rfl)

/-- The program runs, faults nowhere, and leaves its seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m (dats m) (A_eq m) r h c) (run_main m ρ)

end Cert.Kernel.Body

end
-- ==== Proof.KernelIdealAround.lean ====
/-
  The kernel program's @main around its one region.  Before the region nineteen host operations
  build the per-edge input array: each port's node index is wrapped once if negative, the node rows are
  gathered, and the edge features and the two gathered rows are concatenated into a 250000 × 272 array.  After
  the region twenty-six host operations mask the two per-port results, scatter-add them into a zero
  100000 × 128 accumulator at the same wrapped indices, and apply tanh.
  Here: what each array holds when the region is entered, that the host operations write only their own
  results (so the seventeen arguments are found and left as launched), a window's block at a grid point, and
  the arguments' part of the run's final state.
-/
import proofs.«129351_j29910152250019_1_alg».proof.Proof.Gen.KernelIdeal.Launch
import proofs.«129351_j29910152250019_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The region's entry -/

/-- Core `c`'s buffer contents when the region is entered: the launch memory after the nineteen host
    operations that build the input array. -/
abbrev entryVal (c : Dev nD) : Valuation τ sig (Elt F) := StableHlo.after (List.flatten [hostOps0]) (fun b => m (c, b))
/-- The same, read at a TensorCore reference. -/
abbrev entryAt (c : Dev nD) (b : Ref sig .tc) : Buf (Elt F) ((c : Thread nD τ).loc b) := entryVal m c (Proc.devRef .tc b)

/-- No host operation allocates. -/
theorem pre_fresh : (hostOps0 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is: the operations before the region, the region, then the operations after it. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-! ## The operations after the region -/

/-- They touch only unscoped TensorCore buffers: the pipeline's arrays and the buffers that bypass it. -/
theorem post_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem post_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop

/-- Each writes its own result buffer only, and no result of theirs is an array of the pipeline. -/
theorem post_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals
    intro w
    simp only [StableHlo.nullary_writes, StableHlo.unary_writes, StableHlo.binary_writes, StableHlo.ternary_writes, Finset.mem_singleton]
    exact StableHlo.devRef_ne_of_ne (by revert w; decide)

/-! ## Buffers the host operations leave alone -/

/-- Decides that no operation of a stretch writes a given buffer: each writes its own result, a different buffer. -/
local macro "no_write_in " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.nary_writes, Finset.mem_singleton]
  repeat' apply And.intro
  all_goals exact StableHlo.devRef_ne_of_ne (by decide)))

/-- A buffer no operation before the region writes is found by the region as launched. -/
theorem entry_of (c : Dev nD) (b : Ref sig .tc)
    (h : (List.flatten [(hostOps0 : List (HloOp τ sig (Elt F)))]).Forall fun op => Proc.devRef .tc b ∉ op.writes) :
    entryAt m c b = m ((c : Thread nD τ).loc b) :=
  StableHlo.after_of_forall_not_mem (b := Proc.devRef .tc b) _ _ (List.forall_iff_forall_mem.mp h)

/-- A buffer that is no array of the pipeline and that no host operation writes ends as launched. -/
theorem exit_of (dats : (p : Fin 1) → (c : Dev nD) → Dat τ (Elt F) Unit ℕ (UR sig nD τ) ℕ (cfgs p) c) (c : Dev nD) (b : Ref sig .tc)
    (h₀ : (List.flatten [(hostOps0 : List (HloOp τ sig (Elt F)))]).Forall fun op => Proc.devRef .tc b ∉ op.writes)
    (h₁ : (List.flatten [(hostOps1 : List (HloOp τ sig (Elt F)))]).Forall fun op => Proc.devRef .tc b ∉ op.writes)
    (hb : ∀ w, Pipeline.arrRef spec0 w ≠ b) :
    Pipeline.afterTail₀ cfgs dats 0 (entryVal m) [hostOps1] c b = m ((c : Thread nD τ).loc b) := by
  unfold Pipeline.afterTail₀
  rw [StableHlo.after_of_forall_not_mem (b := Proc.devRef .tc b) _ _ (List.forall_iff_forall_mem.mp h₁),
    Pipeline.withArrays_of_ne _ c (entryVal m c) _ b hb]
  exact entry_of m c b h₀

/-! ## A window's block -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The arguments at the end of the run

In a final state of the run every argument array is as launched: the five the region does not stage (the node
coordinates, the edge features, the mask and the two index arrays) because no host operation writes them and
they are no array of the pipeline; the twelve weight and bias arrays because an input window's array ends as the
region found it, and the region found it as launched. -/

section
variable (dats : (p : Fin 1) → (c : Dev nD) → Dat τ (Elt F) Unit ℕ (UR sig nD τ) ℕ (cfgs p) c)
  (hA : ∀ c w, (dats 0 c).A w = entryAt m c (Pipeline.arrRef spec0 w))
  (r : PUnit × MemSt nD τ sig (Elt F)) (h : Pipeline.FramePost cfgs dats 0 (Pipeline.afterTail₀ cfgs dats 0 (entryVal m) [hostOps1]) r) (c : Dev nD)
include h

theorem kept_arg0 : r.2.mem ((c.tc : Thread nD τ).loc main_arg0) = m ((c.tc : Thread nD τ).loc main_arg0) :=
  ((h c).2 main_arg0 (Pipeline.mem_restRefs_of main_arg0 (by decide) (by decide))).trans
    (exit_of m dats c main_arg0 (by no_write_in hostOps0) (by no_write_in hostOps1) (by decide))
theorem kept_arg1 : r.2.mem ((c.tc : Thread nD τ).loc main_arg1) = m ((c.tc : Thread nD τ).loc main_arg1) :=
  ((h c).2 main_arg1 (Pipeline.mem_restRefs_of main_arg1 (by decide) (by decide))).trans
    (exit_of m dats c main_arg1 (by no_write_in hostOps0) (by no_write_in hostOps1) (by decide))
theorem kept_arg2 : r.2.mem ((c.tc : Thread nD τ).loc main_arg2) = m ((c.tc : Thread nD τ).loc main_arg2) :=
  ((h c).2 main_arg2 (Pipeline.mem_restRefs_of main_arg2 (by decide) (by decide))).trans
    (exit_of m dats c main_arg2 (by no_write_in hostOps0) (by no_write_in hostOps1) (by decide))
theorem kept_arg3 : r.2.mem ((c.tc : Thread nD τ).loc main_arg3) = m ((c.tc : Thread nD τ).loc main_arg3) :=
  ((h c).2 main_arg3 (Pipeline.mem_restRefs_of main_arg3 (by decide) (by decide))).trans
    (exit_of m dats c main_arg3 (by no_write_in hostOps0) (by no_write_in hostOps1) (by decide))
theorem kept_arg4 : r.2.mem ((c.tc : Thread nD τ).loc main_arg4) = m ((c.tc : Thread nD τ).loc main_arg4) :=
  ((h c).2 main_arg4 (Pipeline.mem_restRefs_of main_arg4 (by decide) (by decide))).trans
    (exit_of m dats c main_arg4 (by no_write_in hostOps0) (by no_write_in hostOps1) (by decide))

include hA

theorem kept_arg5 : r.2.mem ((c.tc : Thread nD τ).loc main_arg5) = m ((c.tc : Thread nD τ).loc main_arg5) :=
  ((h c).1 1).trans (((dats 0 c).arrAt_in 1 rfl _).trans ((hA c 1).trans (entry_of m c main_arg5 (by no_write_in hostOps0))))
theorem kept_arg6 : r.2.mem ((c.tc : Thread nD τ).loc main_arg6) = m ((c.tc : Thread nD τ).loc main_arg6) :=
  ((h c).1 2).trans (((dats 0 c).arrAt_in 2 rfl _).trans ((hA c 2).trans (entry_of m c main_arg6 (by no_write_in hostOps0))))
theorem kept_arg7 : r.2.mem ((c.tc : Thread nD τ).loc main_arg7) = m ((c.tc : Thread nD τ).loc main_arg7) :=
  ((h c).1 3).trans (((dats 0 c).arrAt_in 3 rfl _).trans ((hA c 3).trans (entry_of m c main_arg7 (by no_write_in hostOps0))))
theorem kept_arg8 : r.2.mem ((c.tc : Thread nD τ).loc main_arg8) = m ((c.tc : Thread nD τ).loc main_arg8) :=
  ((h c).1 4).trans (((dats 0 c).arrAt_in 4 rfl _).trans ((hA c 4).trans (entry_of m c main_arg8 (by no_write_in hostOps0))))
theorem kept_arg9 : r.2.mem ((c.tc : Thread nD τ).loc main_arg9) = m ((c.tc : Thread nD τ).loc main_arg9) :=
  ((h c).1 5).trans (((dats 0 c).arrAt_in 5 rfl _).trans ((hA c 5).trans (entry_of m c main_arg9 (by no_write_in hostOps0))))
theorem kept_arg10 : r.2.mem ((c.tc : Thread nD τ).loc main_arg10) = m ((c.tc : Thread nD τ).loc main_arg10) :=
  ((h c).1 6).trans (((dats 0 c).arrAt_in 6 rfl _).trans ((hA c 6).trans (entry_of m c main_arg10 (by no_write_in hostOps0))))
theorem kept_arg11 : r.2.mem ((c.tc : Thread nD τ).loc main_arg11) = m ((c.tc : Thread nD τ).loc main_arg11) :=
  ((h c).1 7).trans (((dats 0 c).arrAt_in 7 rfl _).trans ((hA c 7).trans (entry_of m c main_arg11 (by no_write_in hostOps0))))
theorem kept_arg12 : r.2.mem ((c.tc : Thread nD τ).loc main_arg12) = m ((c.tc : Thread nD τ).loc main_arg12) :=
  ((h c).1 8).trans (((dats 0 c).arrAt_in 8 rfl _).trans ((hA c 8).trans (entry_of m c main_arg12 (by no_write_in hostOps0))))
theorem kept_arg13 : r.2.mem ((c.tc : Thread nD τ).loc main_arg13) = m ((c.tc : Thread nD τ).loc main_arg13) :=
  ((h c).1 9).trans (((dats 0 c).arrAt_in 9 rfl _).trans ((hA c 9).trans (entry_of m c main_arg13 (by no_write_in hostOps0))))
theorem kept_arg14 : r.2.mem ((c.tc : Thread nD τ).loc main_arg14) = m ((c.tc : Thread nD τ).loc main_arg14) :=
  ((h c).1 10).trans (((dats 0 c).arrAt_in 10 rfl _).trans ((hA c 10).trans (entry_of m c main_arg14 (by no_write_in hostOps0))))
theorem kept_arg15 : r.2.mem ((c.tc : Thread nD τ).loc main_arg15) = m ((c.tc : Thread nD τ).loc main_arg15) :=
  ((h c).1 11).trans (((dats 0 c).arrAt_in 11 rfl _).trans ((hA c 11).trans (entry_of m c main_arg15 (by no_write_in hostOps0))))
theorem kept_arg16 : r.2.mem ((c.tc : Thread nD τ).loc main_arg16) = m ((c.tc : Thread nD τ).loc main_arg16) :=
  ((h c).1 12).trans (((dats 0 c).arrAt_in 12 rfl _).trans ((hA c 12).trans (entry_of m c main_arg16 (by no_write_in hostOps0))))

theorem args_kept :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨kept_arg0 m dats r h c, kept_arg1 m dats r h c, kept_arg2 m dats r h c, kept_arg3 m dats r h c, kept_arg4 m dats r h c,
   kept_arg5 m dats hA r h c, kept_arg6 m dats hA r h c, kept_arg7 m dats hA r h c, kept_arg8 m dats hA r h c, kept_arg9 m dats hA r h c, kept_arg10 m dats hA r h c, kept_arg11 m dats hA r h c, kept_arg12 m dats hA r h c, kept_arg13 m dats hA r h c, kept_arg14 m dats hA r h c, kept_arg15 m dats hA r h c, kept_arg16 m dats hA r h c⟩

end

end Cert.KernelIdeal.Around

end
-- ==== Proof.KernelIdealBody.lean ====
/-
  The kernel body at one grid point, and the run of the kernel program.
  At a point the body reads a 2000 × 272 block of the per-edge input array and, for each of the two ports,
  that port's three weight matrices and three bias vectors; it writes, for each port, a 2000 × 128 block: the
  port's three-layer perceptron of the block's rows (a product with the first weights plus bias, clamped below
  at zero, the same with the second weights, then the third product plus bias).  Each output buffer is
  overwritten whole by one store, so what it holds afterwards is that one stored value, whatever it held before.
  The pipeline stages the input block afresh at every point and the weights once; the two results are written
  back at every point.
-/
import proofs.«129351_j29910152250019_1_alg».proof.Proof.KernelIdealAround
import proofs.«129351_j29910152250019_1_alg».proof.Proof.Gen.KernelIdeal.Skeleton
import Idealize.ShloMosaic.Lib.Ring
import Idealize.ShloMosaic.Lib.Tactic

set_option maxRecDepth 16384

noncomputable section

namespace Cert.KernelIdeal.Body

open Cert.KernelIdeal Cert.KernelIdeal.Gen Cert.KernelIdeal.Around
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer is read or written whole -/

abbrev rIn : Rect S2000x272 := Rect.unit (s := S2000x272) ![0, 0] S2000x272.size inb_S2000x272_S2000x272_0_0
abbrev rW1 : Rect S272x256 := Rect.unit (s := S272x256) ![0, 0] S272x256.size inb_S272x256_S272x256_0_0
abbrev rB256 : Rect S256 := Rect.unit (s := S256) ![0] S256.size inb_S256_S256_0
abbrev rW2 : Rect S256x256 := Rect.unit (s := S256x256) ![0, 0] S256x256.size inb_S256x256_S256x256_0_0
abbrev rW3 : Rect S256x128 := Rect.unit (s := S256x128) ![0, 0] S256x128.size inb_S256x128_S256x128_0_0
abbrev rB128 : Rect S128 := Rect.unit (s := S128) ![0] S128.size inb_S128_S128_0
abbrev rOut : Rect S2000x128 := Rect.unit (s := S2000x128) ![0, 0] S2000x128.size inb_S2000x128_S2000x128_0_0

/-! ## What the body leaves in the two output buffers -/

/-- Port 1's buffer after the body: its one store, the perceptron of the input block under port 1's weights. -/
def port1Block (x0 : Vec F S2000x272 .f32) (x1 : Vec F S272x256 .f32) (x2 : Vec F S256 .f32) (x3 : Vec F S256x256 .f32)
    (x4 : Vec F S256 .f32) (x5 : Vec F S256x128 .f32) (x6 : Vec F S128 .f32) : Vec F S2000x128 .f32 :=
  View.canon [⟨rOut, k0_pay3 (View.ld x0 rIn) (View.ld x1 rW1) (View.ld x2 rB256) (View.ld x3 rW2) (View.ld x4 rB256) (View.ld x5 rW3) (View.ld x6 rB128)⟩]

/-- Port 2's buffer after the body: the same of port 2's weights. -/
def port2Block (x0 : Vec F S2000x272 .f32) (x7 : Vec F S272x256 .f32) (x8 : Vec F S256 .f32) (x9 : Vec F S256x256 .f32)
    (x10 : Vec F S256 .f32) (x11 : Vec F S256x128 .f32) (x12 : Vec F S128 .f32) : Vec F S2000x128 .f32 :=
  View.canon [⟨rOut, k0_pay1 (k0_pay4 (View.ld x0 rIn) (View.ld x7 rW1)) (k0_pay5 (View.ld x8 rB256)) (View.ld x9 rW2) (View.ld x10 rB256) (View.ld x11 rW3) (View.ld x12 rB128)⟩]

/-- One whole-buffer store covers the buffer. -/
theorem out_cover (p0 : Vec F S2000x128 .f32) (y : S2000x128.Idx) :
    ∃ pc ∈ ([⟨rOut, p0⟩] : List (View.Piece (Elt F) S2000x128 .f32)), y ∈ pc.1.set :=
  View.cover_of_tiled [⟨rOut, p0⟩] S2000x128.size (by rfl) y

/-! ## The body's triple -/

set_option maxHeartbeats 4000000 in
/-- On whole staging buffers, the thirteen inputs' at contents `x0 … x12` and the two outputs' at anything, the body
    runs to its end, leaves the inputs as they were, and leaves the outputs at `port1Block` and `port2Block`. -/
theorem sound_kernel (c : Dev nD) (E : Set ℕ) (i : grid0.Coords) (arg1 : Memref sig .tc .vmem S2000x272 .f32) (harg1 : arg1.IsWhole) (arg2 : Memref sig .tc .vmem S272x256 .f32) (harg2 : arg2.IsWhole) (arg3 : Memref sig .tc .vmem S256 .f32) (harg3 : arg3.IsWhole) (arg4 : Memref sig .tc .vmem S256x256 .f32) (harg4 : arg4.IsWhole) (arg5 : Memref sig .tc .vmem S256 .f32) (harg5 : arg5.IsWhole) (arg6 : Memref sig .tc .vmem S256x128 .f32) (harg6 : arg6.IsWhole) (arg7 : Memref sig .tc .vmem S128 .f32) (harg7 : arg7.IsWhole) (arg8 : Memref sig .tc .vmem S272x256 .f32) (harg8 : arg8.IsWhole) (arg9 : Memref sig .tc .vmem S256 .f32) (harg9 : arg9.IsWhole) (arg10 : Memref sig .tc .vmem S256x256 .f32) (harg10 : arg10.IsWhole) (arg11 : Memref sig .tc .vmem S256 .f32) (harg11 : arg11.IsWhole) (arg12 : Memref sig .tc .vmem S256x128 .f32) (harg12 : arg12.IsWhole) (arg13 : Memref sig .tc .vmem S128 .f32) (harg13 : arg13.IsWhole) (arg14 : Memref sig .tc .vmem S2000x128 .f32) (harg14 : arg14.IsWhole) (arg15 : Memref sig .tc .vmem S2000x128 .f32) (harg15 : arg15.IsWhole)
    (x0 : Vec F S2000x272 .f32) (x1 : Vec F S272x256 .f32) (x2 : Vec F S256 .f32) (x3 : Vec F S256x256 .f32) (x4 : Vec F S256 .f32) (x5 : Vec F S256x128 .f32) (x6 : Vec F S128 .f32) (x7 : Vec F S272x256 .f32) (x8 : Vec F S256 .f32) (x9 : Vec F S256x256 .f32) (x10 : Vec F S256 .f32) (x11 : Vec F S256x128 .f32) (x12 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12
            ∗ owns (c : Thread nD τ) arg14 fullShare (port1Block x0 x1 x2 x3 x4 x5 x6)
            ∗ owns (c : Thread nD τ) arg15 fullShare (port2Block x0 x7 x8 x9 x10 x11 x12)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    try dsimp only
    exact View.read_writes_eq_canon _ _ _ (out_cover _)
  iexists _; isplitr
  swap; · iexact H14
  ipureintro
  try dsimp only
  exact View.read_writes_eq_canon _ _ _ (out_cover _)

/-! ## The pipeline's proof data -/

/-- On core `c`: the arrays as the region finds them; after the body at point `t` an input's buffer still at its
    block and each port's output buffer at that port's perceptron of the blocks; nothing else of the core is used. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => port1Block (blockAt m c 0 t) (blockAt m c 1 t) (blockAt m c 2 t) (blockAt m c 3 t) (blockAt m c 4 t) (blockAt m c 5 t) (blockAt m c 6 t)
    | ⟨14, _⟩ => port2Block (blockAt m c 0 t) (blockAt m c 7 t) (blockAt m c 8 t) (blockAt m c 9 t) (blockAt m c 10 t) (blockAt m c 11 t) (blockAt m c 12 t)
  Φ _ := Pipeline.ΦA spec0 c
  q _ := fullShare
  owed _ := 0

/-- The proof data's arrays are the region-entry contents (by projection; the entry valuation stays folded). -/
theorem A_eq (c : Dev nD) (w : Fin cfg0.W) : (dats m 0 c).A w = entryAt m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t = blockAt m c 6 t := by dsimp only [dats]
theorem after_7 (c : Dev nD) (t : Fin cfg0.N) : (dats m 0 c).after 7 t = blockAt m c 7 t := by dsimp only [dats]
theorem after_8 (c : Dev nD) (t : Fin cfg0.N) : (dats m 0 c).after 8 t = blockAt m c 8 t := by dsimp only [dats]
theorem after_9 (c : Dev nD) (t : Fin cfg0.N) : (dats m 0 c).after 9 t = blockAt m c 9 t := by dsimp only [dats]
theorem after_10 (c : Dev nD) (t : Fin cfg0.N) : (dats m 0 c).after 10 t = blockAt m c 10 t := by dsimp only [dats]
theorem after_11 (c : Dev nD) (t : Fin cfg0.N) : (dats m 0 c).after 11 t = blockAt m c 11 t := by dsimp only [dats]
theorem after_12 (c : Dev nD) (t : Fin cfg0.N) : (dats m 0 c).after 12 t = blockAt m c 12 t := by dsimp only [dats]
theorem after_13 (c : Dev nD) (t : Fin cfg0.N) : (dats m 0 c).after 13 t
    = port1Block (blockAt m c 0 t) (blockAt m c 1 t) (blockAt m c 2 t) (blockAt m c 3 t) (blockAt m c 4 t) (blockAt m c 5 t) (blockAt m c 6 t) := by dsimp only [dats]
theorem after_14 (c : Dev nD) (t : Fin cfg0.N) : (dats m 0 c).after 14 t
    = port2Block (blockAt m c 0 t) (blockAt m c 7 t) (blockAt m c 8 t) (blockAt m c 9 t) (blockAt m c 10 t) (blockAt m c 11 t) (blockAt m c 12 t) := by dsimp only [dats]

/-- An input's current staging buffer holds its block at every point, staged there or not: when it is not
    staged afresh the block index has not moved, and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)
theorem before_6 (c : Dev nD) (t : Fin cfg0.N) (d) : (dats m 0 c).before 6 t d = blockAt m c 6 t :=
  ((dats m 0 c).before_in_eq_fetched 6 rfl (fun _ => rfl) (fun _ _ _ => rfl)
    (fun t => by rw [after_6]; unfold Dat.blockOf blockAt; rw [A_eq]; try rfl) t d).trans
    (by unfold Dat.fetched Dat.blockOf blockAt; rw [A_eq]; try rfl)
theorem before_7 (c : Dev nD) (t : Fin cfg0.N) (d) : (dats m 0 c).before 7 t d = blockAt m c 7 t :=
  ((dats m 0 c).before_in_eq_fetched 7 rfl (fun _ => rfl) (fun _ _ _ => rfl)
    (fun t => by rw [after_7]; unfold Dat.blockOf blockAt; rw [A_eq]; try rfl) t d).trans
    (by unfold Dat.fetched Dat.blockOf blockAt; rw [A_eq]; try rfl)
theorem before_8 (c : Dev nD) (t : Fin cfg0.N) (d) : (dats m 0 c).before 8 t d = blockAt m c 8 t :=
  ((dats m 0 c).before_in_eq_fetched 8 rfl (fun _ => rfl) (fun _ _ _ => rfl)
    (fun t => by rw [after_8]; unfold Dat.blockOf blockAt; rw [A_eq]; try rfl) t d).trans
    (by unfold Dat.fetched Dat.blockOf blockAt; rw [A_eq]; try rfl)
theorem before_9 (c : Dev nD) (t : Fin cfg0.N) (d) : (dats m 0 c).before 9 t d = blockAt m c 9 t :=
  ((dats m 0 c).before_in_eq_fetched 9 rfl (fun _ => rfl) (fun _ _ _ => rfl)
    (fun t => by rw [after_9]; unfold Dat.blockOf blockAt; rw [A_eq]; try rfl) t d).trans
    (by unfold Dat.fetched Dat.blockOf blockAt; rw [A_eq]; try rfl)
theorem before_10 (c : Dev nD) (t : Fin cfg0.N) (d) : (dats m 0 c).before 10 t d = blockAt m c 10 t :=
  ((dats m 0 c).before_in_eq_fetched 10 rfl (fun _ => rfl) (fun _ _ _ => rfl)
    (fun t => by rw [after_10]; unfold Dat.blockOf blockAt; rw [A_eq]; try rfl) t d).trans
    (by unfold Dat.fetched Dat.blockOf blockAt; rw [A_eq]; try rfl)
theorem before_11 (c : Dev nD) (t : Fin cfg0.N) (d) : (dats m 0 c).before 11 t d = blockAt m c 11 t :=
  ((dats m 0 c).before_in_eq_fetched 11 rfl (fun _ => rfl) (fun _ _ _ => rfl)
    (fun t => by rw [after_11]; unfold Dat.blockOf blockAt; rw [A_eq]; try rfl) t d).trans
    (by unfold Dat.fetched Dat.blockOf blockAt; rw [A_eq]; try rfl)
theorem before_12 (c : Dev nD) (t : Fin cfg0.N) (d) : (dats m 0 c).before 12 t d = blockAt m c 12 t :=
  ((dats m 0 c).before_in_eq_fetched 12 rfl (fun _ => rfl) (fun _ _ _ => rfl)
    (fun t => by rw [after_12]; unfold Dat.blockOf blockAt; rw [A_eq]; try rfl) t d).trans
    (by unfold Dat.fetched Dat.blockOf blockAt; rw [A_eq]; try rfl)

/-! ## The body obligation -/

/-- What the body is called with at point `t`: the windows' current staging buffers, one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 1000000 in
/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any launch memory with zero counters every weakly fair execution of @main terminates, and in every final
    state each array of the pipeline holds what the proof data give it and every other unscoped buffer what the
    operations after the region leave in it. -/
theorem run_main : θ_run defs (onTc (τ := τ) (main (F := F))) (s₀ m ρ)
    (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := post_sub) (hfresh := post_fresh') (hkeep := post_keeps)
    (hmain := main_around m Variants.none) (hA := A_eq m) (hΦ := fun _ _ => rfl)

/-- The program runs, faults nowhere, and leaves its seventeen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => args_kept m (dats m) (A_eq m) r h c) (run_main m ρ)

end Cert.KernelIdeal.Body

end
-- ==== Proof.Perceptron.lean ====
/-
  One port's three-layer perceptron, row by row, on the extended reals.
  A row x of 272 entries goes to the row of 128 entries
      ((max ((max (x·W₁ + b₁) 0)·W₂ + b₂) 0)·W₃ + b₃),
  where y·W is the row of sums Σₖ yₖ · Wₖⱼ.  The clamp's zero is kept as the float word both programs
  print; nothing here needs its value.  The whole-array function applies this to every row of a
  250000 × 272 array.
-/
import Idealize.ShloMosaic.PureOps.Ideal
import Idealize.ShloMosaic.Lib.ValueIdx

noncomputable section

namespace Cert.Perceptron

open Idealize.ShloMosaic Idealize.ShloMosaic.ValueIdx

/-- The word both programs clamp at (the float zero), as an extended real. -/
abbrev zeroWord : EReal := Ideal.ofBits .f32 0x00000000#32

/-- A row times a matrix, plus a bias row: entry `j` is Σₖ xₖ · Wₖⱼ + bⱼ. -/
def affine {K J : Nat} (x : Fin K → EReal) (W : Fin K → Fin J → EReal) (b : Fin J → EReal) (j : Fin J) : EReal :=
  (∑ k : Fin K, x k * W k j) + b j

/-- The perceptron of one row. -/
def row (x : Fin 272 → EReal) (W₁ : Fin 272 → Fin 256 → EReal) (b₁ : Fin 256 → EReal)
    (W₂ : Fin 256 → Fin 256 → EReal) (b₂ : Fin 256 → EReal)
    (W₃ : Fin 256 → Fin 128 → EReal) (b₃ : Fin 128 → EReal) : Fin 128 → EReal :=
  affine (fun k => max (affine (fun k => max (affine x W₁ b₁ k) zeroWord) W₂ b₂ k) zeroWord) W₃ b₃

/-- The perceptron of row `r` of a 250000 × 272 array, at column `j`, the weights given as arrays. -/
def at2 (X : (⟨2, ![250000, 272]⟩ : Shape).Idx → EReal)
    (W₁ : (⟨2, ![272, 256]⟩ : Shape).Idx → EReal) (b₁ : (⟨1, ![256]⟩ : Shape).Idx → EReal)
    (W₂ : (⟨2, ![256, 256]⟩ : Shape).Idx → EReal) (b₂ : (⟨1, ![256]⟩ : Shape).Idx → EReal)
    (W₃ : (⟨2, ![256, 128]⟩ : Shape).Idx → EReal) (b₃ : (⟨1, ![128]⟩ : Shape).Idx → EReal)
    (r : Fin 250000) (j : Fin 128) : EReal :=
  row (fun k => X (ix2 r k)) (fun k j => W₁ (ix2 k j)) (fun j => b₁ (ix1 j))
    (fun k j => W₂ (ix2 k j)) (fun j => b₂ (ix1 j)) (fun k j => W₃ (ix2 k j)) (fun j => b₃ (ix1 j)) j

/-- The whole 250000 × 128 result. -/
def rows (X : (⟨2, ![250000, 272]⟩ : Shape).Idx → EReal)
    (W₁ : (⟨2, ![272, 256]⟩ : Shape).Idx → EReal) (b₁ : (⟨1, ![256]⟩ : Shape).Idx → EReal)
    (W₂ : (⟨2, ![256, 256]⟩ : Shape).Idx → EReal) (b₂ : (⟨1, ![256]⟩ : Shape).Idx → EReal)
    (W₃ : (⟨2, ![256, 128]⟩ : Shape).Idx → EReal) (b₃ : (⟨1, ![128]⟩ : Shape).Idx → EReal) :
    (⟨2, ![250000, 128]⟩ : Shape).Idx → EReal :=
  fun i => at2 X W₁ b₁ W₂ b₂ W₃ b₃ ⟨(i 0).val, (i 0).isLt⟩ ⟨(i 1).val, (i 1).isLt⟩

/-- The whole-array function at an index whose row is `r` and column `q`. -/
theorem rows_at (X : (⟨2, ![250000, 272]⟩ : Shape).Idx → EReal)
    (W₁ : (⟨2, ![272, 256]⟩ : Shape).Idx → EReal) (b₁ : (⟨1, ![256]⟩ : Shape).Idx → EReal)
    (W₂ : (⟨2, ![256, 256]⟩ : Shape).Idx → EReal) (b₂ : (⟨1, ![256]⟩ : Shape).Idx → EReal)
    (W₃ : (⟨2, ![256, 128]⟩ : Shape).Idx → EReal) (b₃ : (⟨1, ![128]⟩ : Shape).Idx → EReal)
    (i : (⟨2, ![250000, 128]⟩ : Shape).Idx) (r : Fin 250000) (q : Fin 128)
    (h₀ : (i 0).val = r.val) (h₁ : (i 1).val = q.val) :
    rows X W₁ b₁ W₂ b₂ W₃ b₃ i = at2 X W₁ b₁ W₂ b₂ W₃ b₃ r q := by
  unfold rows
  rw [show (⟨(i 0).val, (i 0).isLt⟩ : Fin 250000) = r from Fin.ext h₀,
    show (⟨(i 1).val, (i 1).isLt⟩ : Fin 128) = q from Fin.ext h₁]

end Cert.Perceptron

end
-- ==== Proof.KernelIdealRows.lean ====
/-
  The kernel body's two stored values, read at a row and a column of the block, at the ideal values.
  There a change of float format is the identity and the matrix unit's product into a zero accumulator is the
  plain sum over the contracted index, so each stored value at (p, j) is the row perceptron of row p of the
  input block under that port's weights: three products, each followed by its bias row, the first two clamped
  below at zero.
-/
import proofs.«129351_j29910152250019_1_alg».proof.Proof.Gen.KernelIdeal.Skeleton
import proofs.«129351_j29910152250019_1_alg».proof.Proof.Perceptron
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Cert.Perceptron
open Idealize.ShloMosaic Idealize.ShloMosaic.TcCoe Idealize.ShloMosaic.ValueIdx

/-! ### The 2000x272 · 272x256 product -/

theorem lhs1_0 (i : S2000x256.Idx) (q : dot_S2000x272_S272x256_S2000x256_1_0_0_1_n_n.contr.Idx) :
    (dot_S2000x272_S272x256_S2000x256_1_0_0_1_n_n.lhsIdx i q 0).val = (i 0).val := by
  unfold DotDims.lhsIdx
  rw [dif_neg (show ¬(0 : Fin S2000x272.rank) ∈ dot_S2000x272_S272x256_S2000x256_1_0_0_1_n_n.lhsBatch by decide), dif_pos (show (0 : Fin S2000x272.rank) ∈ dot_S2000x272_S272x256_S2000x256_1_0_0_1_n_n.lhsNonContracting by decide)]
  rfl
theorem lhs1_1 (i : S2000x256.Idx) (q : dot_S2000x272_S272x256_S2000x256_1_0_0_1_n_n.contr.Idx) :
    (dot_S2000x272_S272x256_S2000x256_1_0_0_1_n_n.lhsIdx i q 1).val = (q ⟨0, by decide⟩).val :=
  dot_S2000x272_S272x256_S2000x256_1_0_0_1_n_n.lhsIdx_val_of_single rfl i q
theorem rhs1_0 (i : S2000x256.Idx) (q : dot_S2000x272_S272x256_S2000x256_1_0_0_1_n_n.contr.Idx) :
    (dot_S2000x272_S272x256_S2000x256_1_0_0_1_n_n.rhsIdx i q 0).val = (q ⟨0, by decide⟩).val :=
  dot_S2000x272_S272x256_S2000x256_1_0_0_1_n_n.rhsIdx_val_of_single rfl i q
theorem rhs1_1 (i : S2000x256.Idx) (q : dot_S2000x272_S272x256_S2000x256_1_0_0_1_n_n.contr.Idx) :
    (dot_S2000x272_S272x256_S2000x256_1_0_0_1_n_n.rhsIdx i q 1).val = (i 1).val := by
  unfold DotDims.rhsIdx
  rw [dif_neg (show ¬(1 : Fin S272x256.rank) ∈ dot_S2000x272_S272x256_S2000x256_1_0_0_1_n_n.rhsBatch by decide), dif_pos (show (1 : Fin S272x256.rank) ∈ dot_S2000x272_S272x256_S2000x256_1_0_0_1_n_n.rhsNonContracting by decide)]
  rfl

/-- Into a zero accumulator the matrix unit's product at row `p`, column `q` is the sum over the contracted index. -/
theorem mm1 {φ₁ φ₂ : FTy} (l : FVec Ideal S2000x272 φ₁) (r : FVec Ideal S272x256 φ₂) (p : Fin 2000) (q : Fin 256) :
    matmul dot_S2000x272_S272x256_S2000x256_1_0_0_1_n_n none l r (constant S2000x256 .f32 0x00000000#32) (ix2 p q)
      = ∑ k : Fin 272, l (ix2 p k) * r (ix2 k q) := by
  simp only [matmul]
  rw [Ideal.matmul_constant_zero_apply, ← Equiv.sum_comp (ValueIdx.contrEquiv1 dot_S2000x272_S272x256_S2000x256_1_0_0_1_n_n 272 rfl rfl).symm]
  refine Finset.sum_congr rfl fun k _ => ?_
  have hk := ValueIdx.contrEquiv1_symm_val dot_S2000x272_S272x256_S2000x256_1_0_0_1_n_n 272 rfl rfl k
  have el : dot_S2000x272_S272x256_S2000x256_1_0_0_1_n_n.lhsIdx (ix2 p q) ((ValueIdx.contrEquiv1 dot_S2000x272_S272x256_S2000x256_1_0_0_1_n_n 272 rfl rfl).symm k) = ix2 p k := funext fun a => Fin.ext (by
    match a with
    | ⟨0, _⟩ => exact lhs1_0 _ _
    | ⟨1, _⟩ => exact (lhs1_1 _ _).trans hk)
  have er : dot_S2000x272_S272x256_S2000x256_1_0_0_1_n_n.rhsIdx (ix2 p q) ((ValueIdx.contrEquiv1 dot_S2000x272_S272x256_S2000x256_1_0_0_1_n_n 272 rfl rfl).symm k) = ix2 k q := funext fun a => Fin.ext (by
    match a with
    | ⟨0, _⟩ => exact (rhs1_0 _ _).trans hk
    | ⟨1, _⟩ => exact rhs1_1 _ _)
  rw [el, er]

/-! ### The 2000x256 · 256x256 product -/

theorem lhs2_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs2_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs2_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs2_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator the matrix unit's product at row `p`, column `q` is the sum over the contracted index. -/
theorem mm2 {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs2_0 _ _
    | ⟨1, _⟩ => exact (lhs2_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs2_0 _ _).trans hk
    | ⟨1, _⟩ => exact rhs2_1 _ _)
  rw [el, er]

/-! ### The 2000x256 · 256x128 product -/

theorem lhs3_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs3_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs3_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs3_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into a zero accumulator the matrix unit's product at row `p`, column `q` is the sum over the contracted index. -/
theorem mm3 {φ₁ φ₂ : FTy} (l : FVec Ideal S2000x256 φ₁) (r : FVec Ideal S256x128 φ₂) (p : Fin 2000) (q : Fin 128) :
    matmul dot_S2000x256_S256x128_S2000x128_1_0_0_1_n_n none l r (constant S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs3_0 _ _
    | ⟨1, _⟩ => exact (lhs3_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs3_0 _ _).trans hk
    | ⟨1, _⟩ => exact rhs3_1 _ _)
  rw [el, er]

/-! ### The bias row and the clamp -/

/-- A bias vector, made a one-row matrix and repeated down the 2000 rows, read at (p, q): the vector at q. -/
theorem bias256 (b : FVec Ideal S256 .f32) (p : Fin 2000) (q : Fin 256) :
    broadcastTo S2000x256 (shapeCast S1x256 b shapeCasts_S256_S1x256) broadcasts_S1x256_S2000x256 (ix2 p q) = b (ix1 q) := by
  rw [broadcastTo_1b_ab_apply, shapeCast_a_1a_apply]
theorem bias128 (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- The clamp below at the zero word, entry by entry. -/
theorem clamp (y : FVec Ideal S2000x256 .f32) (i : S2000x256.Idx) :
    maximumf y (broadcast S2000x256 (Scalar.ofBits .f32 0x00000000#32)) i = max (y i) zeroWord := rfl

/-! ### The two stored values -/

/-- Port 1's stored value at (p, j). -/
theorem port1_at (v0 : Vec Ideal S2000x272 .f32) (v3 : Vec Ideal S272x256 .f32) (v6 : Vec Ideal S256 .f32)
    (v13 : Vec Ideal S256x256 .f32) (v16 : Vec Ideal S256 .f32) (v23 : Vec Ideal S256x128 .f32) (v26 : Vec Ideal S128 .f32)
    (p : Fin 2000) (j : Fin 128) :
    k0_pay3 (F := Ideal) v0 v3 v6 v13 v16 v23 v26 (ix2 p j)
      = row (fun k => v0 (ix2 p k)) (fun k j => v3 (ix2 k j)) (fun j => v6 (ix1 j))
          (fun k j => v13 (ix2 k j)) (fun j => v16 (ix1 j)) (fun k j => v23 (ix2 k j)) (fun j => v26 (ix1 j)) j := by
  unfold k0_pay3 k0_pay2 row affine
  simp only [addf_apply, mm1, mm2, mm3, bias256, bias128, clamp, truncf_apply, shapeCast_self]

/-- Port 2's stored value at (p, j). -/
theorem port2_at (v0 : Vec Ideal S2000x272 .f32) (v31 : Vec Ideal S272x256 .f32) (v34 : Vec Ideal S256 .f32)
    (v41 : Vec Ideal S256x256 .f32) (v44 : Vec Ideal S256 .f32) (v51 : Vec Ideal S256x128 .f32) (v54 : Vec Ideal S128 .f32)
    (p : Fin 2000) (j : Fin 128) :
    k0_pay1 (F := Ideal) (k0_pay4 v0 v31) (k0_pay5 v34) v41 v44 v51 v54 (ix2 p j)
      = row (fun k => v0 (ix2 p k)) (fun k j => v31 (ix2 k j)) (fun j => v34 (ix1 j))
          (fun k j => v41 (ix2 k j)) (fun j => v44 (ix1 j)) (fun k j => v51 (ix2 k j)) (fun j => v54 (ix1 j)) j := by
  unfold k0_pay1 k0_pay4 k0_pay5 k0_pay2 row affine
  simp only [addf_apply, mm1, mm2, mm3, bias256, bias128, clamp, truncf_apply, shapeCast_self]

end Cert.KernelIdeal.Rows

end
-- ==== Proof.KernelIdealBlocks.lean ====
/-
  From blocks to arrays.  Grid point t stages rows 2000·t … 2000·t + 1999 of the 250000 × 272 input array and
  the whole of every weight and bias array, and writes back rows 2000·t … 2000·t + 1999 of each port's
  250000 × 128 result.  The body's stored value at row p of the block is the row perceptron of the block's row p,
  which is the input array's row 2000·t + p; the 125 blocks tile the result, so each result array ends as the
  row perceptron of every row of the input array.
-/
import proofs.«129351_j29910152250019_1_alg».proof.Proof.KernelIdealBody
import proofs.«129351_j29910152250019_1_alg».proof.Proof.KernelIdealRows
import Idealize.ShloMosaic.Lib.Pipeline.Value

set_option maxRecDepth 16384

noncomputable section

namespace Cert.KernelIdeal.Blocks

open Cert.KernelIdeal Cert.KernelIdeal.Gen Cert.KernelIdeal.Around Cert.KernelIdeal.Body Cert.KernelIdeal.Rows Cert.Perceptron
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The input array's block: rows 2000·t … of the array -/

abbrev arrX (c : Dev nD) : Vec Ideal S250000x272 .f32 := entryAt m c main_v14
abbrev blk0 (c : Dev nD) (t : Fin cfg0.N) : Vec Ideal S2000x272 .f32 := blockAt m c 0 t
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)

/-- Row `p` of point `t`'s input block is row `2000·t + p` of the input array. -/
theorem blk0_at (c : Dev nD) (t : Fin cfg0.N) (p : Fin 2000) (k : Fin 272) (r : Fin 250000) (hr : r.val = t.val * 2000 + p.val) :
    blk0 m c t (ix2 p k) = arrX m c (ix2 r k) := by
  show ((cfg0.win 0).blk t).view.read (Elt Ideal) (entryAt m c (Pipeline.arrRef spec0 0)) (ix2 p k) = _
  rw [View.read_apply]
  show entryAt m c main_v14 _ = entryAt m c main_v14 _
  congr 1
  funext a; apply Fin.ext
  match a with
  | ⟨0, _⟩ => show win0_0.index t (0 : Fin 2) * 2000 + 1 * p.val = r.val; rw [(idx0 t).1, hr]; omega
  | ⟨1, _⟩ => show win0_0.index t (1 : Fin 2) * 272 + 1 * k.val = k.val; rw [(idx0 t).2]; omega

/-! ## The weights' and biases' blocks: the whole arrays -/

abbrev arr5 (c : Dev nD) : Vec Ideal S272x256 .f32 := entryAt m c main_arg5
abbrev blk1 (c : Dev nD) (t : Fin cfg0.N) : Vec Ideal S272x256 .f32 := blockAt m c 1 t
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem blk1_at (c : Dev nD) (t : Fin cfg0.N) (y : S272x256.Idx) : blk1 m c t y = arr5 m c y := by
  show ((cfg0.win 1).blk t).view.read (Elt Ideal) (entryAt m c (Pipeline.arrRef spec0 1)) y = _
  rw [View.read_apply]
  show entryAt m c main_arg5 _ = entryAt m c main_arg5 _
  congr 1
  funext a; apply Fin.ext
  match a with
  | ⟨0, _⟩ => show win0_1.index t (0 : Fin 2) * 272 + 1 * (y 0).val = (y 0).val; rw [(idx1 t).1]; omega
  | ⟨1, _⟩ => show win0_1.index t (1 : Fin 2) * 256 + 1 * (y 1).val = (y 1).val; rw [(idx1 t).2]; omega

abbrev arr6 (c : Dev nD) : Vec Ideal S256 .f32 := entryAt m c main_arg6
abbrev blk2 (c : Dev nD) (t : Fin cfg0.N) : Vec Ideal S256 .f32 := blockAt m c 2 t
theorem idx2 : ∀ t : Fin cfg0.N, win0_2.index t (0 : Fin 1) = 0 :=
  (by decide +kernel : ∀ t : Fin grid0.N, win0_2.index t (0 : Fin 1) = 0)
theorem blk2_at (c : Dev nD) (t : Fin cfg0.N) (y : S256.Idx) : blk2 m c t y = arr6 m c y := by
  show ((cfg0.win 2).blk t).view.read (Elt Ideal) (entryAt m c (Pipeline.arrRef spec0 2)) y = _
  rw [View.read_apply]
  show entryAt m c main_arg6 _ = entryAt m c main_arg6 _
  congr 1
  funext a; apply Fin.ext
  match a with
  | ⟨0, _⟩ => show win0_2.index t (0 : Fin 1) * 256 + 1 * (y 0).val = (y 0).val; rw [idx2 t]; omega

abbrev arr7 (c : Dev nD) : Vec Ideal S256x256 .f32 := entryAt m c main_arg7
abbrev blk3 (c : Dev nD) (t : Fin cfg0.N) : Vec Ideal S256x256 .f32 := blockAt m c 3 t
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem blk3_at (c : Dev nD) (t : Fin cfg0.N) (y : S256x256.Idx) : blk3 m c t y = arr7 m c y := by
  show ((cfg0.win 3).blk t).view.read (Elt Ideal) (entryAt m c (Pipeline.arrRef spec0 3)) y = _
  rw [View.read_apply]
  show entryAt m c main_arg7 _ = entryAt m c main_arg7 _
  congr 1
  funext a; apply Fin.ext
  match a with
  | ⟨0, _⟩ => show win0_3.index t (0 : Fin 2) * 256 + 1 * (y 0).val = (y 0).val; rw [(idx3 t).1]; omega
  | ⟨1, _⟩ => show win0_3.index t (1 : Fin 2) * 256 + 1 * (y 1).val = (y 1).val; rw [(idx3 t).2]; omega

abbrev arr8 (c : Dev nD) : Vec Ideal S256 .f32 := entryAt m c main_arg8
abbrev blk4 (c : Dev nD) (t : Fin cfg0.N) : Vec Ideal S256 .f32 := blockAt m c 4 t
theorem idx4 : ∀ t : Fin cfg0.N, win0_4.index t (0 : Fin 1) = 0 :=
  (by decide +kernel : ∀ t : Fin grid0.N, win0_4.index t (0 : Fin 1) = 0)
theorem blk4_at (c : Dev nD) (t : Fin cfg0.N) (y : S256.Idx) : blk4 m c t y = arr8 m c y := by
  show ((cfg0.win 4).blk t).view.read (Elt Ideal) (entryAt m c (Pipeline.arrRef spec0 4)) y = _
  rw [View.read_apply]
  show entryAt m c main_arg8 _ = entryAt m c main_arg8 _
  congr 1
  funext a; apply Fin.ext
  match a with
  | ⟨0, _⟩ => show win0_4.index t (0 : Fin 1) * 256 + 1 * (y 0).val = (y 0).val; rw [idx4 t]; omega

abbrev arr9 (c : Dev nD) : Vec Ideal S256x128 .f32 := entryAt m c main_arg9
abbrev blk5 (c : Dev nD) (t : Fin cfg0.N) : Vec Ideal S256x128 .f32 := blockAt m c 5 t
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem blk5_at (c : Dev nD) (t : Fin cfg0.N) (y : S256x128.Idx) : blk5 m c t y = arr9 m c y := by
  show ((cfg0.win 5).blk t).view.read (Elt Ideal) (entryAt m c (Pipeline.arrRef spec0 5)) y = _
  rw [View.read_apply]
  show entryAt m c main_arg9 _ = entryAt m c main_arg9 _
  congr 1
  funext a; apply Fin.ext
  match a with
  | ⟨0, _⟩ => show win0_5.index t (0 : Fin 2) * 256 + 1 * (y 0).val = (y 0).val; rw [(idx5 t).1]; omega
  | ⟨1, _⟩ => show win0_5.index t (1 : Fin 2) * 128 + 1 * (y 1).val = (y 1).val; rw [(idx5 t).2]; omega

abbrev arr10 (c : Dev nD) : Vec Ideal S128 .f32 := entryAt m c main_arg10
abbrev blk6 (c : Dev nD) (t : Fin cfg0.N) : Vec Ideal S128 .f32 := blockAt m c 6 t
theorem idx6 : ∀ t : Fin cfg0.N, win0_6.index t (0 : Fin 1) = 0 :=
  (by decide +kernel : ∀ t : Fin grid0.N, win0_6.index t (0 : Fin 1) = 0)
theorem blk6_at (c : Dev nD) (t : Fin cfg0.N) (y : S128.Idx) : blk6 m c t y = arr10 m c y := by
  show ((cfg0.win 6).blk t).view.read (Elt Ideal) (entryAt m c (Pipeline.arrRef spec0 6)) y = _
  rw [View.read_apply]
  show entryAt m c main_arg10 _ = entryAt m c main_arg10 _
  congr 1
  funext a; apply Fin.ext
  match a with
  | ⟨0, _⟩ => show win0_6.index t (0 : Fin 1) * 128 + 1 * (y 0).val = (y 0).val; rw [idx6 t]; omega

abbrev arr11 (c : Dev nD) : Vec Ideal S272x256 .f32 := entryAt m c main_arg11
abbrev blk7 (c : Dev nD) (t : Fin cfg0.N) : Vec Ideal S272x256 .f32 := blockAt m c 7 t
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem blk7_at (c : Dev nD) (t : Fin cfg0.N) (y : S272x256.Idx) : blk7 m c t y = arr11 m c y := by
  show ((cfg0.win 7).blk t).view.read (Elt Ideal) (entryAt m c (Pipeline.arrRef spec0 7)) y = _
  rw [View.read_apply]
  show entryAt m c main_arg11 _ = entryAt m c main_arg11 _
  congr 1
  funext a; apply Fin.ext
  match a with
  | ⟨0, _⟩ => show win0_7.index t (0 : Fin 2) * 272 + 1 * (y 0).val = (y 0).val; rw [(idx7 t).1]; omega
  | ⟨1, _⟩ => show win0_7.index t (1 : Fin 2) * 256 + 1 * (y 1).val = (y 1).val; rw [(idx7 t).2]; omega

abbrev arr12 (c : Dev nD) : Vec Ideal S256 .f32 := entryAt m c main_arg12
abbrev blk8 (c : Dev nD) (t : Fin cfg0.N) : Vec Ideal S256 .f32 := blockAt m c 8 t
theorem idx8 : ∀ t : Fin cfg0.N, win0_8.index t (0 : Fin 1) = 0 :=
  (by decide +kernel : ∀ t : Fin grid0.N, win0_8.index t (0 : Fin 1) = 0)
theorem blk8_at (c : Dev nD) (t : Fin cfg0.N) (y : S256.Idx) : blk8 m c t y = arr12 m c y := by
  show ((cfg0.win 8).blk t).view.read (Elt Ideal) (entryAt m c (Pipeline.arrRef spec0 8)) y = _
  rw [View.read_apply]
  show entryAt m c main_arg12 _ = entryAt m c main_arg12 _
  congr 1
  funext a; apply Fin.ext
  match a with
  | ⟨0, _⟩ => show win0_8.index t (0 : Fin 1) * 256 + 1 * (y 0).val = (y 0).val; rw [idx8 t]; omega

abbrev arr13 (c : Dev nD) : Vec Ideal S256x256 .f32 := entryAt m c main_arg13
abbrev blk9 (c : Dev nD) (t : Fin cfg0.N) : Vec Ideal S256x256 .f32 := blockAt m c 9 t
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem blk9_at (c : Dev nD) (t : Fin cfg0.N) (y : S256x256.Idx) : blk9 m c t y = arr13 m c y := by
  show ((cfg0.win 9).blk t).view.read (Elt Ideal) (entryAt m c (Pipeline.arrRef spec0 9)) y = _
  rw [View.read_apply]
  show entryAt m c main_arg13 _ = entryAt m c main_arg13 _
  congr 1
  funext a; apply Fin.ext
  match a with
  | ⟨0, _⟩ => show win0_9.index t (0 : Fin 2) * 256 + 1 * (y 0).val = (y 0).val; rw [(idx9 t).1]; omega
  | ⟨1, _⟩ => show win0_9.index t (1 : Fin 2) * 256 + 1 * (y 1).val = (y 1).val; rw [(idx9 t).2]; omega

abbrev arr14 (c : Dev nD) : Vec Ideal S256 .f32 := entryAt m c main_arg14
abbrev blk10 (c : Dev nD) (t : Fin cfg0.N) : Vec Ideal S256 .f32 := blockAt m c 10 t
theorem idx10 : ∀ t : Fin cfg0.N, win0_10.index t (0 : Fin 1) = 0 :=
  (by decide +kernel : ∀ t : Fin grid0.N, win0_10.index t (0 : Fin 1) = 0)
theorem blk10_at (c : Dev nD) (t : Fin cfg0.N) (y : S256.Idx) : blk10 m c t y = arr14 m c y := by
  show ((cfg0.win 10).blk t).view.read (Elt Ideal) (entryAt m c (Pipeline.arrRef spec0 10)) y = _
  rw [View.read_apply]
  show entryAt m c main_arg14 _ = entryAt m c main_arg14 _
  congr 1
  funext a; apply Fin.ext
  match a with
  | ⟨0, _⟩ => show win0_10.index t (0 : Fin 1) * 256 + 1 * (y 0).val = (y 0).val; rw [idx10 t]; omega

abbrev arr15 (c : Dev nD) : Vec Ideal S256x128 .f32 := entryAt m c main_arg15
abbrev blk11 (c : Dev nD) (t : Fin cfg0.N) : Vec Ideal S256x128 .f32 := blockAt m c 11 t
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem blk11_at (c : Dev nD) (t : Fin cfg0.N) (y : S256x128.Idx) : blk11 m c t y = arr15 m c y := by
  show ((cfg0.win 11).blk t).view.read (Elt Ideal) (entryAt m c (Pipeline.arrRef spec0 11)) y = _
  rw [View.read_apply]
  show entryAt m c main_arg15 _ = entryAt m c main_arg15 _
  congr 1
  funext a; apply Fin.ext
  match a with
  | ⟨0, _⟩ => show win0_11.index t (0 : Fin 2) * 256 + 1 * (y 0).val = (y 0).val; rw [(idx11 t).1]; omega
  | ⟨1, _⟩ => show win0_11.index t (1 : Fin 2) * 128 + 1 * (y 1).val = (y 1).val; rw [(idx11 t).2]; omega

abbrev arr16 (c : Dev nD) : Vec Ideal S128 .f32 := entryAt m c main_arg16
abbrev blk12 (c : Dev nD) (t : Fin cfg0.N) : Vec Ideal S128 .f32 := blockAt m c 12 t
theorem idx12 : ∀ t : Fin cfg0.N, win0_12.index t (0 : Fin 1) = 0 :=
  (by decide +kernel : ∀ t : Fin grid0.N, win0_12.index t (0 : Fin 1) = 0)
theorem blk12_at (c : Dev nD) (t : Fin cfg0.N) (y : S128.Idx) : blk12 m c t y = arr16 m c y := by
  show ((cfg0.win 12).blk t).view.read (Elt Ideal) (entryAt m c (Pipeline.arrRef spec0 12)) y = _
  rw [View.read_apply]
  show entryAt m c main_arg16 _ = entryAt m c main_arg16 _
  congr 1
  funext a; apply Fin.ext
  match a with
  | ⟨0, _⟩ => show win0_12.index t (0 : Fin 1) * 128 + 1 * (y 0).val = (y 0).val; rw [idx12 t]; omega

/-! ## Port 1 -/

/-- What grid point `t` writes back into port 1's result array is block `t` of the row perceptron of the whole
    input array: the block's row `p` is the array's row `2000·t + p`, and the weights' blocks are the whole weights. -/
theorem flushed13 (c : Dev nD) (t : Fin cfg0.N) :
    (dats m 0 c).flushed 13 t = ((cfg0.win 13).blk t).view.read (Elt Ideal) (rows (arrX m c) (arr5 m c) (arr6 m c) (arr7 m c) (arr8 m c) (arr9 m c) (arr10 m c)) := by
  show (cfg0.win 13).cut (grid0.coords t) ((dats m 0 c).after 13 t) = _
  rw [after_13]
  unfold port1Block
  rw [View.canon_unit_zero hz2]
  simp only [View.ld_unit_zero (S := S2000x272) hz2, View.ld_unit_zero (S := S272x256) hz2, View.ld_unit_zero (S := S256x256) hz2,
    View.ld_unit_zero (S := S256x128) hz2, View.ld_unit_zero (S := S256) hz1, View.ld_unit_zero (S := S128) hz1]
  funext j
  obtain ⟨p, q, rfl⟩ : ∃ (p : Fin 2000) (q : Fin 128), j = ix2 p q := ⟨j 0, j 1, eq_ix2 j⟩
  obtain ⟨e0, e1⟩ := idx13 t
  have ht : t.val < 125 := lt_of_lt_of_eq t.isLt N_0
  have hp : p.val < 2000 := p.isLt
  rw [View.read_apply]
  refine (port1_at (blk0 m c t) (blk1 m c t) (blk2 m c t) (blk3 m c t) (blk4 m c t) (blk5 m c t) (blk6 m c t) p q).trans ?_
  refine Eq.trans ?_ (rows_at (arrX m c) (arr5 m c) (arr6 m c) (arr7 m c) (arr8 m c) (arr9 m c) (arr10 m c)
    (((cfg0.win 13).blk t).view.emb (ix2 p q)) ⟨t.val * 2000 + p.val, by omega⟩ q ?_ ?_).symm
  · unfold at2
    rw [show (fun k => blk0 m c t (ix2 p k)) = fun k => arrX m c (ix2 (⟨t.val * 2000 + p.val, by omega⟩ : Fin 250000) k) from
          funext fun k => blk0_at m c t p k _ rfl,
      show (fun k j => blk1 m c t (ix2 k j)) = fun k j => arr5 m c (ix2 k j) from funext fun k => funext fun j => blk1_at m c t _,
      show (fun j => blk2 m c t (ix1 j)) = fun j => arr6 m c (ix1 j) from funext fun j => blk2_at m c t _,
      show (fun k j => blk3 m c t (ix2 k j)) = fun k j => arr7 m c (ix2 k j) from funext fun k => funext fun j => blk3_at m c t _,
      show (fun j => blk4 m c t (ix1 j)) = fun j => arr8 m c (ix1 j) from funext fun j => blk4_at m c t _,
      show (fun k j => blk5 m c t (ix2 k j)) = fun k j => arr9 m c (ix2 k j) from funext fun k => funext fun j => blk5_at m c t _,
      show (fun j => blk6 m c t (ix1 j)) = fun j => arr10 m c (ix1 j) from funext fun j => blk6_at m c t _]
  · show win0_13.index t (0 : Fin 2) * 2000 + 1 * p.val = t.val * 2000 + p.val
    rw [e0]; omega
  · show win0_13.index t (1 : Fin 2) * 128 + 1 * q.val = q.val
    rw [e1]; omega

/-- An index of the result array lies in point `t`'s block iff each coordinate lies in the block's range. -/
theorem mem_blk13 (t : Fin cfg0.N) (i : S250000x128.Idx) :
    i ∈ ((cfg0.win 13).blk t).view.set ↔ ∀ a : Fin 2, win0_13.index t a * S2000x128.size a ≤ (i a).val
      ∧ (i a).val < win0_13.index t a * S2000x128.size a + S2000x128.size a := by
  show i ∈ ((View.whole main_v15_0).slice (win0_13.rect t)).set ↔ _
  rw [View.set_slice_whole, Rect.mem_set_unit]
  exact Iff.rfl

/-- Every block of rows is some point's. -/
theorem onto13 : ∀ q0 : Fin 125, ∃ t : Fin cfg0.N, win0_13.index t = ![q0.val, 0] :=
  (by decide +kernel : ∀ q0 : Fin 125, ∃ t : Fin grid0.N, win0_13.index t = ![q0.val, 0])

/-- The 125 blocks of 2000 rows tile the 250000 rows: every index is in the block of point `row / 2000`. -/
theorem cover13 (i : S250000x128.Idx) :
    ∃ t : Fin cfg0.N, (cfg0.win 13).flush t = true ∧ i ∈ ((cfg0.win 13).blk t).view.set := by
  have hi0 : (i 0).val < 250000 := (i 0).isLt
  have hi1 : (i 1).val < 128 := (i 1).isLt
  obtain ⟨t, ht⟩ := onto13 ⟨(i 0).val / 2000, by omega⟩
  have q0 : win0_13.index t (0 : Fin 2) = (i 0).val / 2000 := congrFun ht 0
  have q1 : win0_13.index t (1 : Fin 2) = 0 := congrFun ht 1
  refine ⟨t, flush0_13 t, ?_⟩
  rw [mem_blk13]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

/-- Port 1's result array after the run: the row perceptron of every row of the input array. -/
theorem final13 (c : Dev nD) : (dats m 0 c).arrAt 13 cfg0.N = rows (arrX m c) (arr5 m c) (arr6 m c) (arr7 m c) (arr8 m c) (arr9 m c) (arr10 m c) :=
  (dats m 0 c).arrAt_eq_of_cover 13 _ (fun t _ => flushed13 m c t) cover13

/-! ## Port 2 -/

/-- What grid point `t` writes back into port 2's result array is block `t` of the row perceptron of the whole
    input array: the block's row `p` is the array's row `2000·t + p`, and the weights' blocks are the whole weights. -/
theorem flushed14 (c : Dev nD) (t : Fin cfg0.N) :
    (dats m 0 c).flushed 14 t = ((cfg0.win 14).blk t).view.read (Elt Ideal) (rows (arrX m c) (arr11 m c) (arr12 m c) (arr13 m c) (arr14 m c) (arr15 m c) (arr16 m c)) := by
  show (cfg0.win 14).cut (grid0.coords t) ((dats m 0 c).after 14 t) = _
  rw [after_14]
  unfold port2Block
  rw [View.canon_unit_zero hz2]
  simp only [View.ld_unit_zero (S := S2000x272) hz2, View.ld_unit_zero (S := S272x256) hz2, View.ld_unit_zero (S := S256x256) hz2,
    View.ld_unit_zero (S := S256x128) hz2, View.ld_unit_zero (S := S256) hz1, View.ld_unit_zero (S := S128) hz1]
  funext j
  obtain ⟨p, q, rfl⟩ : ∃ (p : Fin 2000) (q : Fin 128), j = ix2 p q := ⟨j 0, j 1, eq_ix2 j⟩
  obtain ⟨e0, e1⟩ := idx14 t
  have ht : t.val < 125 := lt_of_lt_of_eq t.isLt N_0
  have hp : p.val < 2000 := p.isLt
  rw [View.read_apply]
  refine (port2_at (blk0 m c t) (blk7 m c t) (blk8 m c t) (blk9 m c t) (blk10 m c t) (blk11 m c t) (blk12 m c t) p q).trans ?_
  refine Eq.trans ?_ (rows_at (arrX m c) (arr11 m c) (arr12 m c) (arr13 m c) (arr14 m c) (arr15 m c) (arr16 m c)
    (((cfg0.win 14).blk t).view.emb (ix2 p q)) ⟨t.val * 2000 + p.val, by omega⟩ q ?_ ?_).symm
  · unfold at2
    rw [show (fun k => blk0 m c t (ix2 p k)) = fun k => arrX m c (ix2 (⟨t.val * 2000 + p.val, by omega⟩ : Fin 250000) k) from
          funext fun k => blk0_at m c t p k _ rfl,
      show (fun k j => blk7 m c t (ix2 k j)) = fun k j => arr11 m c (ix2 k j) from funext fun k => funext fun j => blk7_at m c t _,
      show (fun j => blk8 m c t (ix1 j)) = fun j => arr12 m c (ix1 j) from funext fun j => blk8_at m c t _,
      show (fun k j => blk9 m c t (ix2 k j)) = fun k j => arr13 m c (ix2 k j) from funext fun k => funext fun j => blk9_at m c t _,
      show (fun j => blk10 m c t (ix1 j)) = fun j => arr14 m c (ix1 j) from funext fun j => blk10_at m c t _,
      show (fun k j => blk11 m c t (ix2 k j)) = fun k j => arr15 m c (ix2 k j) from funext fun k => funext fun j => blk11_at m c t _,
      show (fun j => blk12 m c t (ix1 j)) = fun j => arr16 m c (ix1 j) from funext fun j => blk12_at m c t _]
  · show win0_14.index t (0 : Fin 2) * 2000 + 1 * p.val = t.val * 2000 + p.val
    rw [e0]; omega
  · show win0_14.index t (1 : Fin 2) * 128 + 1 * q.val = q.val
    rw [e1]; omega

/-- An index of the result array lies in point `t`'s block iff each coordinate lies in the block's range. -/
theorem mem_blk14 (t : Fin cfg0.N) (i : S250000x128.Idx) :
    i ∈ ((cfg0.win 14).blk t).view.set ↔ ∀ a : Fin 2, win0_14.index t a * S2000x128.size a ≤ (i a).val
      ∧ (i a).val < win0_14.index t a * S2000x128.size a + S2000x128.size a := by
  show i ∈ ((View.whole main_v15_1).slice (win0_14.rect t)).set ↔ _
  rw [View.set_slice_whole, Rect.mem_set_unit]
  exact Iff.rfl

/-- Every block of rows is some point's. -/
theorem onto14 : ∀ q0 : Fin 125, ∃ t : Fin cfg0.N, win0_14.index t = ![q0.val, 0] :=
  (by decide +kernel : ∀ q0 : Fin 125, ∃ t : Fin grid0.N, win0_14.index t = ![q0.val, 0])

/-- The 125 blocks of 2000 rows tile the 250000 rows: every index is in the block of point `row / 2000`. -/
theorem cover14 (i : S250000x128.Idx) :
    ∃ t : Fin cfg0.N, (cfg0.win 14).flush t = true ∧ i ∈ ((cfg0.win 14).blk t).view.set := by
  have hi0 : (i 0).val < 250000 := (i 0).isLt
  have hi1 : (i 1).val < 128 := (i 1).isLt
  obtain ⟨t, ht⟩ := onto14 ⟨(i 0).val / 2000, by omega⟩
  have q0 : win0_14.index t (0 : Fin 2) = (i 0).val / 2000 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- Port 2's result array after the run: the row perceptron of every row of the input array. -/
theorem final14 (c : Dev nD) : (dats m 0 c).arrAt 14 cfg0.N = rows (arrX m c) (arr11 m c) (arr12 m c) (arr13 m c) (arr14 m c) (arr15 m c) (arr16 m c) :=
  (dats m 0 c).arrAt_eq_of_cover 14 _ (fun t _ => flushed14 m c t) cover14

end Cert.KernelIdeal.Blocks

end
-- ==== Proof.LibNary3.lean ====
/-
  A host operation over a literal family of three operands (a concatenation of three arrays): what it writes,
  with each operand's contents read at its own buffer.
-/
import Idealize.ShloMosaic.Lib.StableHlo.Run

namespace Idealize.ShloMosaic.StableHlo

variable {τ : Topo} {sig : RefSig} {Val : EltTy → Type}

/-- The result of an `nary` operation over the literal family `![x, a, b]`: its function applied to the three
    operands' contents, each AT ITS OWN REFERENCE (`Fin.cons` of the three) rather than under a binder
    `fun k => F ↑(![x, a, b] k)`, where no further result lemma could fire.  The three-operand companion of the
    library's `nary4_result`. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.KernelIdealHost.lean ====
/-
  The host operations around the region, as functions of the arrays they read.
  Before the region: each port's node index is wrapped once if negative (index + 100000), the node rows at the
  wrapped indices are gathered, and the edge features and the two gathered row arrays are joined along the
  second axis into the 250000 × 272 input array.  After the region: each port's result is multiplied by the
  mask repeated along the second axis, both are scatter-added into a zero 100000 × 128 accumulator at the same
  wrapped indices (port 1 first), and tanh is applied.
-/
import proofs.«129351_j29910152250019_1_alg».proof.Proof.KernelIdealAround
import proofs.«129351_j29910152250019_1_alg».proof.Proof.LibNary3
import Idealize.ShloMosaic.PureOps.Ideal
import Idealize.ShloMosaic.Lib.StableHlo.Run

noncomputable section

namespace Cert.KernelIdeal.Host

open Cert.KernelIdeal Cert.KernelIdeal.Gen Cert.KernelIdeal.Around
open Idealize.ShloMosaic Idealize.ShloMosaic.TcCoe Idealize.SL.Sem Idealize.ShloMosaic.StableHlo

/-- A port's node indices, a negative one wrapped once, as a one-column index array. -/
def wrapIdx (x : (⟨S250000, .i32⟩ : BufTy).Contents (Elt Ideal)) : (⟨S250000x1, .i32⟩ : BufTy).Contents (Elt Ideal) :=
  broadcastInDim S250000x1 ![0] bcast_S250000_S250000x1_0
    (select (cmpi .slt x (broadcastInDim S250000 ![] bcast_S_S250000 (constantI S_ 32 0#32)))
      (addi x (broadcastInDim S250000 ![] bcast_S_S250000 (constantI S_ 32 100000#32))) x)

/-- The per-edge input array: the edge's features, then its port-1 node's row, then its port-2 node's row. -/
def inputArr (x0 : (⟨S100000x128, .f32⟩ : BufTy).Contents (Elt Ideal)) (x1 : (⟨S250000x16, .f32⟩ : BufTy).Contents (Elt Ideal)) (x3 x4 : (⟨S250000, .i32⟩ : BufTy).Contents (Elt Ideal)) :
    (⟨S250000x272, .f32⟩ : BufTy).Contents (Elt Ideal) :=
  concatenate S250000x272 1
    [⟨S250000x16, x1⟩,
     ⟨S250000x128, Host.gather gather_S100000x128_S250000x1_S250000x128_1_0_n_n_0_1_1128 x0 (wrapIdx x3)⟩,
     ⟨S250000x128, Host.gather gather_S100000x128_S250000x1_S250000x128_1_0_n_n_0_1_1128 x0 (wrapIdx x4)⟩]
    concatenates_S250000x16_S250000x128_S250000x128_S250000x272_d1

/-- The mask, one entry per edge, repeated along the 128 columns. -/
def maskArr (x2 : (⟨S250000, .f32⟩ : BufTy).Contents (Elt Ideal)) : (⟨S250000x128, .f32⟩ : BufTy).Contents (Elt Ideal) :=
  broadcastInDim S250000x128 ![0, 1] bcast_S250000x1_S250000x128_0_1 (broadcastInDim S250000x1 ![0] bcast_S250000_S250000x1_0 x2)

/-- From the two per-port results to the program's result: mask, scatter-add port 1 then port 2 into zeros, tanh. -/
def finish (o1 o2 : (⟨S250000x128, .f32⟩ : BufTy).Contents (Elt Ideal)) (x2 : (⟨S250000, .f32⟩ : BufTy).Contents (Elt Ideal)) (x3 x4 : (⟨S250000, .i32⟩ : BufTy).Contents (Elt Ideal)) :
    (⟨S100000x128, .f32⟩ : BufTy).Contents (Elt Ideal) :=
  Host.tanh (F := Ideal)
    (Host.scatterAdd (F := Ideal) scatter_S100000x128_S250000x1_S250000x128_1_0_0_1
      (Host.scatterAdd (F := Ideal) scatter_S100000x128_S250000x1_S250000x128_1_0_0_1
        (broadcastInDim S100000x128 ![] bcast_S_S100000x128 (constant (F := Ideal) S_ .f32 0x00000000#32))
        (wrapIdx x3) (mulf (F := Ideal) o1 (maskArr x2)))
      (wrapIdx x4) (mulf (F := Ideal) o2 (maskArr x2)))

/-- The buffers' contents after a stretch of host operations, rewritten operation by operation: an operation's own
    result is its function of its operands' contents, and any other buffer passes through it unchanged. -/
local macro "results_loop" : tactic =>
  `(tactic| (repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)
      | (rw [nary_result_ne]; rotate_left; decide))))

variable (m : (ℓ : Loc nD τ sig) → Buf (Elt Ideal) ℓ)

set_option maxHeartbeats 4000000 in
/-- The region finds, in the array its first window stages, the per-edge input array of the launch arguments. -/
theorem entry_input (c : Dev nD) :
    entryAt m c main_v14 = inputArr (m ((c.tc : Thread nD τ).loc main_arg0)) (m ((c.tc : Thread nD τ).loc main_arg1))
      (m ((c.tc : Thread nD τ).loc main_arg3)) (m ((c.tc : Thread nD τ).loc main_arg4)) := by
  show StableHlo.after hostOps0 (fun b => m (c, b)) (Proc.devRef .tc main_v14) = _
  simp only [after_cons, after_nil]
  rw [nary3_result]
  results_loop
  rfl

end Cert.KernelIdeal.Host

end
-- ==== Proof.KernelIdealResult.lean ====
/-
  The idealized kernel program's result.  The two result arrays of the region are the row perceptron of every
  row of the per-edge input array under port 1's and port 2's weights; the operations after the region mask them,
  scatter-add them at the wrapped node indices into zeros, and apply tanh.  So the program's result is one
  function of the seventeen launch arguments, and the run ends with it and with the arguments as launched.
-/
import proofs.«129351_j29910152250019_1_alg».proof.Proof.KernelIdealBlocks
import proofs.«129351_j29910152250019_1_alg».proof.Proof.KernelIdealHost

set_option maxRecDepth 16384

noncomputable section

namespace Cert.KernelIdeal.Result

open Cert.KernelIdeal Cert.KernelIdeal.Gen Cert.KernelIdeal.Around Cert.KernelIdeal.Body Cert.KernelIdeal.Blocks
open Cert.KernelIdeal.Host Cert.Perceptron
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The program's result on core `c`, as a function of the launch arguments. -/
def value (c : Dev nD) : Buf (Elt Ideal) ((c.tc : Thread nD τ).loc main_v36) :=
  finish
    (rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
    (rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
    (m ((c.tc : Thread nD τ).loc main_arg2)) (m ((c.tc : Thread nD τ).loc main_arg3)) (m ((c.tc : Thread nD τ).loc main_arg4))

/-- Decides that no operation of a stretch writes a given buffer: each writes its own result, a different buffer. -/
local macro "no_write_in " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.nary_writes, Finset.mem_singleton]
  repeat' apply And.intro
  all_goals exact StableHlo.devRef_ne_of_ne (by decide)))

/-- Port 1's result array after the run, in the launch arguments. -/
theorem out1_eq (c : Dev nD) : (dats m 0 c).arrAt 13 cfg0.N
    = rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have f : (dats m 0 c).arrAt 13 cfg0.N = rows (entryAt m c main_v14) (entryAt m c main_arg5) (entryAt m c main_arg6)
      (entryAt m c main_arg7) (entryAt m c main_arg8) (entryAt m c main_arg9) (entryAt m c main_arg10) := final13 m c
  rw [entry_input m c, entry_of m c main_arg5 (by no_write_in hostOps0),
    entry_of m c main_arg6 (by no_write_in hostOps0),
    entry_of m c main_arg7 (by no_write_in hostOps0),
    entry_of m c main_arg8 (by no_write_in hostOps0),
    entry_of m c main_arg9 (by no_write_in hostOps0),
    entry_of m c main_arg10 (by no_write_in hostOps0)] at f
  exact f

/-- Port 2's. -/
theorem out2_eq (c : Dev nD) : (dats m 0 c).arrAt 14 cfg0.N
    = rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  have f : (dats m 0 c).arrAt 14 cfg0.N = rows (entryAt m c main_v14) (entryAt m c main_arg11) (entryAt m c main_arg12)
      (entryAt m c main_arg13) (entryAt m c main_arg14) (entryAt m c main_arg15) (entryAt m c main_arg16) := final14 m c
  rw [entry_input m c, entry_of m c main_arg11 (by no_write_in hostOps0),
    entry_of m c main_arg12 (by no_write_in hostOps0),
    entry_of m c main_arg13 (by no_write_in hostOps0),
    entry_of m c main_arg14 (by no_write_in hostOps0),
    entry_of m c main_arg15 (by no_write_in hostOps0),
    entry_of m c main_arg16 (by no_write_in hostOps0)] at f
  exact f

set_option maxHeartbeats 8000000 in
/-- What the operations after the region leave in the result buffer. -/
theorem result_eq (c : Dev nD) : Pipeline.afterTail₀ cfgs (dats m) 0 (entryVal m) [hostOps1] c main_v36 = value m c := by
  have h13 : Pipeline.withArrays (cfgs 0).spec c (entryVal m c) (fun w => (dats m 0 c).arrAt w (cfgs 0).N) (Proc.devRef .tc main_v15_0)
      = rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
    (Pipeline.withArrays_arr spec0 launch0.win.arr_inj c (entryVal m c) (fun w => (dats m 0 c).arrAt w cfg0.N) 13).trans (out1_eq m c)
  have h14 : Pipeline.withArrays (cfgs 0).spec c (entryVal m c) (fun w => (dats m 0 c).arrAt w (cfgs 0).N) (Proc.devRef .tc main_v15_1)
      = rows (inputArr (m ((c.tc : Thread nD τ).loc main_arg0)) (m ((c.tc : Thread nD τ).loc main_arg1)) (m ((c.tc : Thread nD τ).loc main_arg3)) (m ((c.tc : Thread nD τ).loc main_arg4))) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) :=
    (Pipeline.withArrays_arr spec0 launch0.win.arr_inj c (entryVal m c) (fun w => (dats m 0 c).arrAt w cfg0.N) 14).trans (out2_eq m c)
  have h2 : Pipeline.withArrays (cfgs 0).spec c (entryVal m c) (fun w => (dats m 0 c).arrAt w (cfgs 0).N) (Proc.devRef .tc main_arg2)
      = (m ((c.tc : Thread nD τ).loc main_arg2)) :=
    (Pipeline.withArrays_of_ne spec0 c (entryVal m c) (fun w => (dats m 0 c).arrAt w cfg0.N) main_arg2 (by decide)).trans
      (entry_of m c main_arg2 (by no_write_in hostOps0))
  have h3 : Pipeline.withArrays (cfgs 0).spec c (entryVal m c) (fun w => (dats m 0 c).arrAt w (cfgs 0).N) (Proc.devRef .tc main_arg3)
      = (m ((c.tc : Thread nD τ).loc main_arg3)) :=
    (Pipeline.withArrays_of_ne spec0 c (entryVal m c) (fun w => (dats m 0 c).arrAt w cfg0.N) main_arg3 (by decide)).trans
      (entry_of m c main_arg3 (by no_write_in hostOps0))
  have h4 : Pipeline.withArrays (cfgs 0).spec c (entryVal m c) (fun w => (dats m 0 c).arrAt w (cfgs 0).N) (Proc.devRef .tc main_arg4)
      = (m ((c.tc : Thread nD τ).loc main_arg4)) :=
    (Pipeline.withArrays_of_ne spec0 c (entryVal m c) (fun w => (dats m 0 c).arrAt w cfg0.N) main_arg4 (by decide)).trans
      (entry_of m c main_arg4 (by no_write_in hostOps0))
  unfold Pipeline.afterTail₀
  show StableHlo.after hostOps1 _ (Proc.devRef .tc main_v36) = _
  after_results_simp
  rw [h13, h14, h2, h3, h4]
  rfl

/-- From any launch memory with zero counters the program runs to its end, faults nowhere, ends with its result at
    `value` and leaves its seventeen argument arrays as launched. -/
theorem run (ρ : Dev nD → PrngReg) : θ_run defs (onTc (τ := τ) (main (F := Ideal))) ⟨m, fun _ => 0, ρ⟩ (fun r => ∀ c : Dev nD,
      r.2.mem ((c.tc : Thread nD τ).loc main_v36) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
      ⟨((h c).2 main_v36 (Pipeline.mem_restRefs_of main_v36 (by decide) (by decide))).trans (result_eq m c),
        args_kept m (dats m) (A_eq m) r h c⟩)
    (run_main m ρ)

end Cert.KernelIdeal.Result

end
-- ==== Proof.ReferenceRows.lean ====
/-
  The reference's two per-port results before the mask, read entry by entry at the ideal values.
  Each is three host products (sums over the contracted index), each followed by a bias row repeated down the
  rows, the first two clamped below at zero: the row perceptron of every row of the concatenated
  250000 × 272 input array.
-/
import proofs.«129351_j29910152250019_1_alg».proof.Proof.Gen.ReferenceIdeal.Read
import proofs.«129351_j29910152250019_1_alg».proof.Proof.Perceptron

noncomputable section

namespace Cert.ReferenceIdeal.Rows

open Cert.ReferenceIdeal Cert.ReferenceIdeal.Gen Cert.ReferenceIdeal.Read Cert.Perceptron
open Idealize.ShloMosaic Idealize.ShloMosaic.TcCoe Idealize.ShloMosaic.ValueIdx

/-! ### Port 1 -/

theorem l27 (r : Fin 250000) (q : Fin 128) (k : Fin 256) : lidx_main_v27 (ix2 r q) k = ix2 r k :=
  funext fun a => Fin.ext (by match a with | ⟨0, _⟩ => rfl | ⟨1, _⟩ => rfl)
theorem r27 (r : Fin 250000) (q : Fin 128) (k : Fin 256) : ridx_main_v27 (ix2 r q) k = ix2 k q :=
  funext fun a => Fin.ext (by match a with | ⟨0, _⟩ => rfl | ⟨1, _⟩ => rfl)
theorem b29 (r : Fin 250000) (q : Fin 128) : idx_main_v28 (idx_main_v29 (ix2 r q)) = ix1 q :=
  funext fun a => Fin.ext (by match a with | ⟨0, _⟩ => rfl)
theorem l22 (r : Fin 250000) (q : Fin 256) (k : Fin 256) : lidx_main_v22 (ix2 r q) k = ix2 r k :=
  funext fun a => Fin.ext (by match a with | ⟨0, _⟩ => rfl | ⟨1, _⟩ => rfl)
theorem r22 (r : Fin 250000) (q : Fin 256) (k : Fin 256) : ridx_main_v22 (ix2 r q) k = ix2 k q :=
  funext fun a => Fin.ext (by match a with | ⟨0, _⟩ => rfl | ⟨1, _⟩ => rfl)
theorem b24 (r : Fin 250000) (q : Fin 256) : idx_main_v23 (idx_main_v24 (ix2 r q)) = ix1 q :=
  funext fun a => Fin.ext (by match a with | ⟨0, _⟩ => rfl)
theorem l17 (r : Fin 250000) (q : Fin 256) (k : Fin 272) : lidx_main_v17 (ix2 r q) k = ix2 r k :=
  funext fun a => Fin.ext (by match a with | ⟨0, _⟩ => rfl | ⟨1, _⟩ => rfl)
theorem r17 (r : Fin 250000) (q : Fin 256) (k : Fin 272) : ridx_main_v17 (ix2 r q) k = ix2 k q :=
  funext fun a => Fin.ext (by match a with | ⟨0, _⟩ => rfl | ⟨1, _⟩ => rfl)
theorem b19 (r : Fin 250000) (q : Fin 256) : idx_main_v18 (idx_main_v19 (ix2 r q)) = ix1 q :=
  funext fun a => Fin.ext (by match a with | ⟨0, _⟩ => rfl)

/-- Port 1's result before the mask, as the reference computes it from the concatenated input array and the port's
    weights, is the row perceptron of every row. -/
theorem port1_rows (x0 : (⟨S100000x128, .f32⟩ : BufTy).Contents (Elt Ideal)) (x1 : (⟨S250000x16, .f32⟩ : BufTy).Contents (Elt Ideal)) (x3 x4 : (⟨S250000, .i32⟩ : BufTy).Contents (Elt Ideal))
    (x5 : (⟨S272x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v30 (F := Ideal) x0 x1 x3 x4 x5 x6 x7 x8 x9 x10
      = rows (val_main_v14 (F := Ideal) x0 x1 x3 x4) x5 x6 x7 x8 x9 x10 := by
  funext i
  obtain ⟨r, q, rfl⟩ : ∃ (r : Fin 250000) (q : Fin 128), i = ix2 r q := ⟨i 0, i 1, eq_ix2 i⟩
  show _ = at2 (val_main_v14 (F := Ideal) x0 x1 x3 x4) x5 x6 x7 x8 x9 x10 r q
  unfold at2 row affine
  simp only [val_main_v30_apply, val_main_v27_apply, val_main_v29_apply, val_main_v28_apply,
    val_main_v26_apply, val_main_call1_v0_apply, val_main_call1_cst_apply,
    val_main_v25_apply, val_main_v22_apply, val_main_v24_apply, val_main_v23_apply,
    val_main_v21_apply, val_main_call0_v0_apply, val_main_call0_cst_apply,
    val_main_v20_apply, val_main_v17_apply, val_main_v19_apply, val_main_v18_apply,
    l27, r27, b29, l22, r22, b24, l17, r17, b19,
    Ideal.addf_def, Ideal.maximumf_def, Ideal.ofBits_def]

/-! ### Port 2 -/

theorem l50 (r : Fin 250000) (q : Fin 128) (k : Fin 256) : lidx_main_v50 (ix2 r q) k = ix2 r k :=
  funext fun a => Fin.ext (by match a with | ⟨0, _⟩ => rfl | ⟨1, _⟩ => rfl)
theorem r50 (r : Fin 250000) (q : Fin 128) (k : Fin 256) : ridx_main_v50 (ix2 r q) k = ix2 k q :=
  funext fun a => Fin.ext (by match a with | ⟨0, _⟩ => rfl | ⟨1, _⟩ => rfl)
theorem b52 (r : Fin 250000) (q : Fin 128) : idx_main_v51 (idx_main_v52 (ix2 r q)) = ix1 q :=
  funext fun a => Fin.ext (by match a with | ⟨0, _⟩ => rfl)
theorem l45 (r : Fin 250000) (q : Fin 256) (k : Fin 256) : lidx_main_v45 (ix2 r q) k = ix2 r k :=
  funext fun a => Fin.ext (by match a with | ⟨0, _⟩ => rfl | ⟨1, _⟩ => rfl)
theorem r45 (r : Fin 250000) (q : Fin 256) (k : Fin 256) : ridx_main_v45 (ix2 r q) k = ix2 k q :=
  funext fun a => Fin.ext (by match a with | ⟨0, _⟩ => rfl | ⟨1, _⟩ => rfl)
theorem b47 (r : Fin 250000) (q : Fin 256) : idx_main_v46 (idx_main_v47 (ix2 r q)) = ix1 q :=
  funext fun a => Fin.ext (by match a with | ⟨0, _⟩ => rfl)
theorem l40 (r : Fin 250000) (q : Fin 256) (k : Fin 272) : lidx_main_v40 (ix2 r q) k = ix2 r k :=
  funext fun a => Fin.ext (by match a with | ⟨0, _⟩ => rfl | ⟨1, _⟩ => rfl)
theorem r40 (r : Fin 250000) (q : Fin 256) (k : Fin 272) : ridx_main_v40 (ix2 r q) k = ix2 k q :=
  funext fun a => Fin.ext (by match a with | ⟨0, _⟩ => rfl | ⟨1, _⟩ => rfl)
theorem b42 (r : Fin 250000) (q : Fin 256) : idx_main_v41 (idx_main_v42 (ix2 r q)) = ix1 q :=
  funext fun a => Fin.ext (by match a with | ⟨0, _⟩ => rfl)

/-- Port 2's result before the mask, as the reference computes it from the concatenated input array and the port's
    weights, is the row perceptron of every row. -/
theorem port2_rows (x0 : (⟨S100000x128, .f32⟩ : BufTy).Contents (Elt Ideal)) (x1 : (⟨S250000x16, .f32⟩ : BufTy).Contents (Elt Ideal)) (x3 x4 : (⟨S250000, .i32⟩ : BufTy).Contents (Elt Ideal))
    (x11 : (⟨S272x256, .f32⟩ : BufTy).Contents (Elt Ideal)) (x12 : (⟨S256, .f32⟩ : BufTy).Contents (Elt Ideal)) (x13 : (⟨S256x256, .f32⟩ : BufTy).Contents (Elt Ideal)) (x14 : (⟨S256, .f32⟩ : BufTy).Contents (Elt Ideal)) (x15 : (⟨S256x128, .f32⟩ : BufTy).Contents (Elt Ideal)) (x16 : (⟨S128, .f32⟩ : BufTy).Contents (Elt Ideal)) :
    val_main_v53 (F := Ideal) x0 x1 x3 x4 x11 x12 x13 x14 x15 x16
      = rows (val_main_v14 (F := Ideal) x0 x1 x3 x4) x11 x12 x13 x14 x15 x16 := by
  funext i
  obtain ⟨r, q, rfl⟩ : ∃ (r : Fin 250000) (q : Fin 128), i = ix2 r q := ⟨i 0, i 1, eq_ix2 i⟩
  show _ = at2 (val_main_v14 (F := Ideal) x0 x1 x3 x4) x11 x12 x13 x14 x15 x16 r q
  unfold at2 row affine
  simp only [val_main_v53_apply, val_main_v50_apply, val_main_v52_apply, val_main_v51_apply,
    val_main_v49_apply, val_main_call3_v0_apply, val_main_call3_cst_apply,
    val_main_v48_apply, val_main_v45_apply, val_main_v47_apply, val_main_v46_apply,
    val_main_v44_apply, val_main_call2_v0_apply, val_main_call2_cst_apply,
    val_main_v43_apply, val_main_v40_apply, val_main_v42_apply, val_main_v41_apply,
    l50, r50, b52, l45, r45, b47, l40, r40, b42,
    Ideal.addf_def, Ideal.maximumf_def, Ideal.ofBits_def]

end Cert.ReferenceIdeal.Rows

end
-- ==== Proof.Bridge.lean ====
/-
  The two programs compute one function.  The reference's result term is: the mask, the two scatter-adds and
  tanh, applied to its two per-port results; those are the row perceptron of every row of its concatenated input
  array; and its host operations before and after are, operation for operation, the kernel program's.
-/
import proofs.«129351_j29910152250019_1_alg».proof.Proof.ReferenceRows
import proofs.«129351_j29910152250019_1_alg».proof.Proof.KernelIdealHost

noncomputable section

namespace Cert.Bridge

open Cert.Perceptron Cert.KernelIdeal.Host
open Idealize.ShloMosaic Idealize.ShloMosaic.TcCoe

/-- The reference's result, as a function of the seventeen argument arrays, is the kernel program's. -/
theorem ref_value (x0 : (⟨Cert.KernelIdeal.S100000x128, .f32⟩ : BufTy).Contents (Elt Ideal)) (x1 : (⟨Cert.KernelIdeal.S250000x16, .f32⟩ : BufTy).Contents (Elt Ideal)) (x2 : (⟨Cert.KernelIdeal.S250000, .f32⟩ : BufTy).Contents (Elt Ideal))
    (x3 x4 : (⟨Cert.KernelIdeal.S250000, .i32⟩ : BufTy).Contents (Elt Ideal))
    (x5 : (⟨Cert.KernelIdeal.S272x256, .f32⟩ : BufTy).Contents (Elt Ideal)) (x6 : (⟨Cert.KernelIdeal.S256, .f32⟩ : BufTy).Contents (Elt Ideal)) (x7 : (⟨Cert.KernelIdeal.S256x256, .f32⟩ : BufTy).Contents (Elt Ideal))
    (x8 : (⟨Cert.KernelIdeal.S256, .f32⟩ : BufTy).Contents (Elt Ideal)) (x9 : (⟨Cert.KernelIdeal.S256x128, .f32⟩ : BufTy).Contents (Elt Ideal)) (x10 : (⟨Cert.KernelIdeal.S128, .f32⟩ : BufTy).Contents (Elt Ideal))
    (x11 : (⟨Cert.KernelIdeal.S272x256, .f32⟩ : BufTy).Contents (Elt Ideal)) (x12 : (⟨Cert.KernelIdeal.S256, .f32⟩ : BufTy).Contents (Elt Ideal)) (x13 : (⟨Cert.KernelIdeal.S256x256, .f32⟩ : BufTy).Contents (Elt Ideal))
    (x14 : (⟨Cert.KernelIdeal.S256, .f32⟩ : BufTy).Contents (Elt Ideal)) (x15 : (⟨Cert.KernelIdeal.S256x128, .f32⟩ : BufTy).Contents (Elt Ideal)) (x16 : (⟨Cert.KernelIdeal.S128, .f32⟩ : BufTy).Contents (Elt Ideal)) :
    Cert.ReferenceIdeal.Read.val_main_v63 (F := Ideal) x0 x1 x2 x3 x4 x5 x6 x7 x8 x9 x10 x11 x12 x13 x14 x15 x16
      = finish (rows (inputArr x0 x1 x3 x4) x5 x6 x7 x8 x9 x10) (rows (inputArr x0 x1 x3 x4) x11 x12 x13 x14 x15 x16) x2 x3 x4 := by
  have e : Cert.ReferenceIdeal.Read.val_main_v63 (F := Ideal) x0 x1 x2 x3 x4 x5 x6 x7 x8 x9 x10 x11 x12 x13 x14 x15 x16
      = finish (Cert.ReferenceIdeal.Read.val_main_v30 (F := Ideal) x0 x1 x3 x4 x5 x6 x7 x8 x9 x10)
          (Cert.ReferenceIdeal.Read.val_main_v53 (F := Ideal) x0 x1 x3 x4 x11 x12 x13 x14 x15 x16) x2 x3 x4 := rfl
  rw [e, Cert.ReferenceIdeal.Rows.port1_rows, Cert.ReferenceIdeal.Rows.port2_rows]
  rfl

end Cert.Bridge

end
-- ==== Proof.lean ====
/-
  The kernel computes, for 250000 edges and two ports, a three-layer perceptron of the edge's input row (its
  features and its two nodes' rows) in blocks of 2000 edges, with bf16 operands to the matrix unit and f32
  accumulation; the host masks the two results, scatter-adds them at the ports' node indices and applies tanh.
  The reference does the same in f32 on the whole arrays.
  Over the extended reals a change of float format is the identity and both matrix products are the plain sums,
  so each program's two per-port results are the row perceptron of every row of the same input array, and the
  host operations around them are the same in both programs: equal results, index by index.  No law beyond
  reading the sums is used, so the precondition is never opened.
  Each kernel program runs to its end and leaves its arguments alone because its host operations write only their
  own results and the region's windows restore or never touch the argument arrays; the reference's run is read
  back operation by operation.  The idealization rewrote nothing.
-/
import proofs.«129351_j29910152250019_1_alg».proof.Defs
import proofs.«129351_j29910152250019_1_alg».proof.Proof.KernelBody
import proofs.«129351_j29910152250019_1_alg».proof.Proof.KernelIdealResult
import proofs.«129351_j29910152250019_1_alg».proof.Proof.Bridge
import proofs.«129351_j29910152250019_1_alg».proof.Proof.Gen.ReferenceIdeal.Run
import proofs.«129351_j29910152250019_1_alg».proof.Proof.Gen.ReferenceIdeal.Read
import proofs.«129351_j29910152250019_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Body.frame m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end at one value: the kernel program's at
    its value function of its arguments, the reference's at its composed term, which is that function of the
    same arrays. -/
theorem algebraic : Cert.algebraic_KernelIdeal_ReferenceIdeal := by
  intro m ρ m' ρ' _ hagree
  refine ⟨fun c => Cert.KernelIdeal.Result.value m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12, g13, g14, g15, g16⟩ := hagree c
  rw [Cert.ReferenceIdeal.Read.val_main_v63_eq, g0, g1, g2, g3, g4, g5, g6, g7, g8, g9, g10, g11, g12, g13, g14, g15, g16]
  exact Cert.Bridge.ref_value _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
